-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S2x500000 : Shape := ⟨2, ![2, 500000]⟩
abbrev S500000 : Shape := ⟨1, ![500000]⟩
abbrev S2x100000 : Shape := ⟨2, ![2, 100000]⟩
abbrev S100000 : Shape := ⟨1, ![100000]⟩
abbrev S4096 : Shape := ⟨1, ![4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S500000 : S_.BroadcastsInDim S500000 (![] : Fin 0 → Fin S500000.rank)
  reducesTo_S500000_S_d0 : S500000.ReducesTo [0] S_
  bcast_S_S100000 : S_.BroadcastsInDim S100000 (![] : Fin 0 → Fin S100000.rank)
  reducesTo_S100000_S_d0 : S100000.ReducesTo [0] S_
  bcast_S_S4096 : S_.BroadcastsInDim S4096 (![] : Fin 0 → Fin S4096.rank)
  reducesTo_S4096_S_d0 : S4096.ReducesTo [0] S_
  bcast_S_S2x500000 : S_.BroadcastsInDim S2x500000 (![] : Fin 0 → Fin S2x500000.rank)
  reducesTo_S2x500000_S_d0_1 : S2x500000.ReducesTo [0, 1] S_
  bcast_S_S2x100000 : S_.BroadcastsInDim S2x100000 (![] : Fin 0 → Fin S2x100000.rank)
  reducesTo_S2x100000_S_d0_1 : S2x100000.ReducesTo [0, 1] S_

variable [Facts]

def fn_part1 {F : FTy → Type} [FloatOps F] (main_arg1 : IVec S2x500000 32) (main_arg3 : IVec S2x100000 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 0#32
  let main_v19 : IVec S2x500000 32 := broadcastInDim S2x500000 ![] bcast_S_S2x500000 main_c_6
  let main_v20 : IVec S2x500000 1 := cmpi .sge main_arg1 main_v19
  let main_c_7 : IVec S_ 32 := constantI S_ 32 4096#32
  let main_v21 : IVec S2x500000 32 := broadcastInDim S2x500000 ![] bcast_S_S2x500000 main_c_7
  let main_v22 : IVec S2x500000 1 := cmpi .slt main_arg1 main_v21
  let main_v23 : IVec S2x500000 1 := andi main_v20 main_v22
  let main_c_8 : IVec S_ 1 := constantI S_ 1 1#1
  let main_v24 : IVec S_ 1 := (fun x v => Host.reduce IntOp.andi x v reducesTo_S2x500000_S_d0_1 h_S_) main_v23 main_c_8
  let main_v25 : IVec S_ 1 := andi main_v18 main_v24
  let main_c_9 : IVec S_ 32 := constantI S_ 32 0#32
  let main_v26 : IVec S2x100000 32 := broadcastInDim S2x100000 ![] bcast_S_S2x100000 main_c_9
  let main_v27 : IVec S2x100000 1 := cmpi .sge main_arg3 main_v26
  let main_c_10 : IVec S_ 32 := constantI S_ 32 4096#32
  let main_v28 : IVec S2x100000 32 := broadcastInDim S2x100000 ![] bcast_S_S2x100000 main_c_10
  let main_v29 : IVec S2x100000 1 := cmpi .slt main_arg3 main_v28
  let main_v30 : IVec S2x100000 1 := andi main_v27 main_v29
  let main_c_11 : IVec S_ 1 := constantI S_ 1 1#1
  let main_v31 : IVec S_ 1 := (fun x v => Host.reduce IntOp.andi x v reducesTo_S2x100000_S_d0_1 h_S_) main_v30 main_c_11
  let main_v32 : IVec S_ 1 := andi main_v25 main_v31
  main_v32

def fn {F : FTy → Type} [FloatOps F] (main_arg0 : FVec F S256x4096 .f32) (main_arg1 : IVec S2x500000 32) (main_arg2 : FVec F S500000 .f32) (main_arg3 : IVec S2x100000 32) (main_arg4 : FVec F S100000 .f32) (main_arg5 : FVec F S4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S100000 .f32 := Host.absf main_arg4
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg1 main_arg3 main_v13 main_v16
-- ==== Kernel.lean ====
abbrev S256x4096 : Shape := ⟨2, ![256, 4096]⟩
abbrev S2x500000 : Shape := ⟨2, ![2, 500000]⟩
abbrev S500000 : Shape := ⟨1, ![500000]⟩
abbrev S2x100000 : Shape := ⟨2, ![2, 100000]⟩
abbrev S100000 : Shape := ⟨1, ![100000]⟩
abbrev S4096 : Shape := ⟨1, ![4096]⟩
abbrev S2x600000 : Shape := ⟨2, ![2, 600000]⟩
abbrev S600000 : Shape := ⟨1, ![600000]⟩
abbrev S_ : Shape := ⟨0, ![]⟩
abbrev S4096x4096 : Shape := ⟨2, ![4096, 4096]⟩
abbrev S1x600000 : Shape := ⟨2, ![1, 600000]⟩
abbrev S600000x1 : Shape := ⟨2, ![600000, 1]⟩
abbrev S600000x2 : Shape := ⟨2, ![600000, 2]⟩
abbrev S1x4096 : Shape := ⟨2, ![1, 4096]⟩
abbrev S512x4096 : Shape := ⟨2, ![512, 4096]⟩
abbrev S1x512 : Shape := ⟨2, ![1, 512]⟩
abbrev S256x512 : Shape := ⟨2, ![256, 512]⟩

abbrev nBuf : Space → Nat
  | .hbm => 35
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S2x500000, .i32⟩
  | .hbm, ⟨2, _⟩ => ⟨S500000, .f32⟩
  | .hbm, ⟨3, _⟩ => ⟨S2x100000, .i32⟩
  | .hbm, ⟨4, _⟩ => ⟨S100000, .f32⟩
  | .hbm, ⟨5, _⟩ => ⟨S4096, .f32⟩
  | .hbm, ⟨6, _⟩ => ⟨S2x600000, .i32⟩
  | .hbm, ⟨7, _⟩ => ⟨S600000, .f32⟩
  | .hbm, ⟨8, _⟩ => ⟨S_, .f32⟩
  | .hbm, ⟨9, _⟩ => ⟨S4096x4096, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x1, .i32⟩
  | .hbm, ⟨30, _⟩ => ⟨S600000x2, .i32⟩
  | .hbm, ⟨31, _⟩ => ⟨S4096x4096, .f32⟩
  | .hbm, ⟨32, _⟩ => ⟨S256x4096, .bf16⟩
  | .hbm, ⟨33, _⟩ => ⟨S1x4096, .f32⟩
  | .hbm, ⟨34, _⟩ => ⟨S256x4096, .f32⟩
  | .local _ .vmem, ⟨0, _⟩ => ⟨S256x4096, .bf16⟩
  | .local _ .vmem, ⟨1, _⟩ => ⟨S512x4096, .f32⟩
  | .local _ .vmem, ⟨2, _⟩ => ⟨S512x4096, .f32⟩
  | .local _ .vmem, ⟨3, _⟩ => ⟨S1x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S2x500000_S2x100000_S2x600000_d1 : Shape.Concatenates [S2x500000, S2x100000] S2x600000 1
  concatenates_S500000_S100000_S600000_d0 : Shape.Concatenates [S500000, S100000] S600000 0
  bcast_S_S4096x4096 : S_.BroadcastsInDim S4096x4096 (![] : Fin 0 → Fin S4096x4096.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  scatter_S4096x4096_S600000x2_S600000_n_01_01_1_wf : ScatterDims.WF S4096x4096 S600000x2 S600000 [] [0, 1] [0, 1] 1
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x4096.size a
  hwx0_3 : ∀ i : grid0.Coords, EltTy.bits .f32 = 32 ∨ (Rect.block (s := S256x4096) S256x512.size (cc0_transform_3 i) (hinb0_3 i)).WholeWords (EltTy.packing .f32)

variable [Facts₀]

def scatter_S4096x4096_S600000x2_S600000_n_01_01_1 : ScatterDims S4096x4096 S600000x2 S600000 where
  updateWindowDims := []
  insertedWindowDims := [0, 1]
  scatterDimsToOperandDims := [0, 1]
  indexVectorDim := 1
  wf := scatter_S4096x4096_S600000x2_S600000_n_01_01_1_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_v21) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x4096 : Shape := ⟨2, ![256, 4096]⟩
abbrev S2x500000 : Shape := ⟨2, ![2, 500000]⟩
abbrev S500000 : Shape := ⟨1, ![500000]⟩
abbrev S2x100000 : Shape := ⟨2, ![2, 100000]⟩
abbrev S100000 : Shape := ⟨1, ![100000]⟩
abbrev S4096 : Shape := ⟨1, ![4096]⟩
abbrev S1x500000 : Shape := ⟨2, ![1, 500000]⟩
abbrev S_ : Shape := ⟨0, ![]⟩
abbrev S500000x1 : Shape := ⟨2, ![500000, 1]⟩
abbrev S256x500000 : Shape := ⟨2, ![256, 500000]⟩
abbrev S500000x256 : Shape := ⟨2, ![500000, 256]⟩
abbrev S4096x256 : Shape := ⟨2, ![4096, 256]⟩
abbrev S1x100000 : Shape := ⟨2, ![1, 100000]⟩
abbrev S100000x1 : Shape := ⟨2, ![100000, 1]⟩
abbrev S256x100000 : Shape := ⟨2, ![256, 100000]⟩
abbrev S100000x256 : Shape := ⟨2, ![100000, 256]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S2x500000, .i32⟩
  | .hbm, ⟨2, _⟩ => ⟨S500000, .f32⟩
  | .hbm, ⟨3, _⟩ => ⟨S2x100000, .i32⟩
  | .hbm, ⟨4, _⟩ => ⟨S100000, .f32⟩
  | .hbm, ⟨5, _⟩ => ⟨S4096, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S256x500000, .f32⟩
  | .hbm, ⟨19, _⟩ => ⟨S1x500000, .f32⟩
  | .hbm, ⟨20, _⟩ => ⟨S256x500000, .f32⟩
  | .hbm, ⟨21, _⟩ => ⟨S256x500000, .f32⟩
  | .hbm, ⟨22, _⟩ => ⟨S500000x256, .f32⟩
  | .hbm, ⟨23, _⟩ => ⟨S_, .f32⟩
  | .hbm, ⟨24, _⟩ => ⟨S4096x256, .f32⟩
  | .hbm, ⟨25, _⟩ => ⟨S500000x1, .i32⟩
  | .hbm, ⟨26, _⟩ => ⟨S4096x256, .f32⟩
  | .hbm, ⟨27, _⟩ => ⟨S256x4096, .f32⟩
  | .hbm, ⟨28, _⟩ => ⟨S1x100000, .i32⟩
  | .hbm, ⟨29, _⟩ => ⟨S100000, .i32⟩
  | .hbm, ⟨30, _⟩ => ⟨S1x100000, .i32⟩
  | .hbm, ⟨31, _⟩ => ⟨S100000, .i32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S256x100000, .f32⟩
  | .hbm, ⟨41, _⟩ => ⟨S1x100000, .f32⟩
  | .hbm, ⟨42, _⟩ => ⟨S256x100000, .f32⟩
  | .hbm, ⟨43, _⟩ => ⟨S256x100000, .f32⟩
  | .hbm, ⟨44, _⟩ => ⟨S100000x256, .f32⟩
  | .hbm, ⟨45, _⟩ => ⟨S_, .f32⟩
  | .hbm, ⟨46, _⟩ => ⟨S4096x256, .f32⟩
  | .hbm, ⟨47, _⟩ => ⟨S100000x1, .i32⟩
  | .hbm, ⟨48, _⟩ => ⟨S4096x256, .f32⟩
  | .hbm, ⟨49, _⟩ => ⟨S256x4096, .f32⟩
  | .hbm, ⟨50, _⟩ => ⟨S256x4096, .f32⟩
  | .hbm, ⟨51, _⟩ => ⟨S1x4096, .f32⟩
  | .hbm, ⟨52, _⟩ => ⟨S256x4096, .f32⟩
  | .hbm, ⟨53, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S500000_S1x500000_1 : S500000.BroadcastsInDim S1x500000 (![1] : Fin 1 → Fin S1x500000.rank)
  bcast_S1x500000_S256x500000_0_1 : S1x500000.BroadcastsInDim S256x500000 (![0, 1] : Fin 2 → Fin S256x500000.rank)
  transposes_S256x500000_S500000x256_1_0 : S256x500000.Transposes [1, 0] S500000x256
  bcast_S_S4096x256 : S_.BroadcastsInDim S4096x256 (![] : Fin 0 → Fin S4096x256.rank)
  transposes_S4096x256_S256x4096_1_0 : S4096x256.Transposes [1, 0] S256x4096
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S100000_S1x100000_1 : S100000.BroadcastsInDim S1x100000 (![1] : Fin 1 → Fin S1x100000.rank)
  bcast_S1x100000_S256x100000_0_1 : S1x100000.BroadcastsInDim S256x100000 (![0, 1] : Fin 2 → Fin S256x100000.rank)
  transposes_S256x100000_S100000x256_1_0 : S256x100000.Transposes [1, 0] S100000x256
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  gather_S256x4096_S500000x1_S256x500000_0_1_n_n_1_1_2561_wf : GatherDims.WF S256x4096 S500000x1 S256x500000 [0] [1] [] [1] [] 1 ![256, 1]
  scatter_S4096x256_S500000x1_S500000x256_1_0_0_1_wf : ScatterDims.WF S4096x256 S500000x1 S500000x256 [1] [0] [0] 1
  gather_S256x4096_S100000x1_S256x100000_0_1_n_n_1_1_2561_wf : GatherDims.WF S256x4096 S100000x1 S256x100000 [0] [1] [] [1] [] 1 ![256, 1]
  scatter_S4096x256_S100000x1_S100000x256_1_0_0_1_wf : ScatterDims.WF S4096x256 S100000x1 S100000x256 [1] [0] [0] 1

variable [Facts₀]

def gather_S256x4096_S500000x1_S256x500000_0_1_n_n_1_1_2561 : GatherDims S256x4096 S500000x1 S256x500000 where
  offsetDims := [0]
  collapsedSliceDims := [1]
  operandBatchingDims := []
  startIndicesBatchingDims := []
  startIndexMap := [1]
  indexVectorDim := 1
  sliceSizes := ![256, 1]
  wf := gather_S256x4096_S500000x1_S256x500000_0_1_n_n_1_1_2561_wf
def scatter_S4096x256_S500000x1_S500000x256_1_0_0_1 : ScatterDims S4096x256 S500000x1 S500000x256 where
  updateWindowDims := [1]
  insertedWindowDims := [0]
  scatterDimsToOperandDims := [0]
  indexVectorDim := 1
  wf := scatter_S4096x256_S500000x1_S500000x256_1_0_0_1_wf
def gather_S256x4096_S100000x1_S256x100000_0_1_n_n_1_1_2561 : GatherDims S256x4096 S100000x1 S256x100000 where
  offsetDims := [0]
  collapsedSliceDims := [1]
  operandBatchingDims := []
  startIndicesBatchingDims := []
  startIndexMap := [1]
  indexVectorDim := 1
  sliceSizes := ![256, 1]
  wf := gather_S256x4096_S100000x1_S256x100000_0_1_n_n_1_1_2561_wf
def scatter_S4096x256_S100000x1_S100000x256_1_0_0_1 : ScatterDims S4096x256 S100000x1 S100000x256 where
  updateWindowDims := [1]
  insertedWindowDims := [0]
  scatterDimsToOperandDims := [0]
  indexVectorDim := 1
  wf := scatter_S4096x256_S100000x1_S100000x256_1_0_0_1_wf

class Facts : Prop extends Facts₀ where

variable [Facts]
-- ==== Proof.SpmmSpec.lean ====
/-
  The common meaning of both programs: a dense layer whose weight matrix is the sum of two sparse matrices in
  coordinate form, out = x · (S₁ + S₂)ᵀ + b with x of 256 × 4096 entries, S₁ of 500000 and S₂ of 100000 nonzeros
  named by (row, column) words, duplicates adding up, and b a vector of 4096 entries. Written here twice, index by
  index on the extended reals: as the sum over the nonzeros of a row (what a gather and a segment sum compute), and
  as a contraction with the dense 4096 × 4096 matrix the nonzeros scatter into (what a scatter and a matrix product
  compute). The two agree when every value is a real number and every index word lies in [0, 4096).
-/
import Idealize.ShloMosaic.PureOps.Ideal
import Idealize.ShloMosaic.Lib.ValueIdx

noncomputable section

namespace Spmm

open Idealize.ShloMosaic Idealize.ShloMosaic.ValueIdx

/-- An index word read against an axis of 4096 entries the way jnp reads a possibly negative index: a negative
    word has 4096 added, any other word is kept. -/
def nrm (w : BitVec 32) : BitVec 32 := Scalar.select (IntOp.cmpi .slt w 0#32) (IntOp.addi w 4096#32) w

/-- The column of x a column word names: the word normalised, read signed, and clamped into the axis. -/
def colOf (w : BitVec 32) : Fin 4096 := ⟨min (nrm w).toInt.toNat 4095, by omega⟩

/-- One sparse matrix's share of entry (p, o) of x · Sᵀ as a sum over its nonzeros: those whose row word reads o
    contribute the entry of x in their column times their value. -/
def part {E : ℕ} (x : (⟨2, ![256, 4096]⟩ : Shape).Idx → EReal) (idx : IVec ⟨2, ![2, E]⟩ 32)
    (v : (⟨1, ![E]⟩ : Shape).Idx → EReal) (p : Fin 256) (o : Fin 4096) : EReal :=
  ∑ e : Fin E, if (idx (ix2 (0 : Fin 2) e)).toInt = (o.val : Int)
    then x (ix2 p (colOf (idx (ix2 (1 : Fin 2) e)))) * v (ix1 e) else 0

/-- The layer as a sum over nonzeros: the two matrices' shares and the bias. -/
def G (x : (⟨2, ![256, 4096]⟩ : Shape).Idx → EReal) (i1 : IVec ⟨2, ![2, 500000]⟩ 32)
    (v1 : (⟨1, ![500000]⟩ : Shape).Idx → EReal) (i3 : IVec ⟨2, ![2, 100000]⟩ 32)
    (v3 : (⟨1, ![100000]⟩ : Shape).Idx → EReal) (b : (⟨1, ![4096]⟩ : Shape).Idx → EReal) :
    (⟨2, ![256, 4096]⟩ : Shape).Idx → EReal :=
  fun j => (part x i1 v1 (j 0) (j 1) + part x i3 v3 (j 0) (j 1)) + b (ix1 (j 1))

/-- The two index arrays laid end to end along the nonzero axis: component r of nonzero e. -/
def catIdx (i1 : IVec ⟨2, ![2, 500000]⟩ 32) (i3 : IVec ⟨2, ![2, 100000]⟩ 32) (r : Fin 2) (e : Fin 600000) : BitVec 32 :=
  if h : e.val < 500000 then i1 (ix2 r ⟨e.val, h⟩) else i3 (ix2 r ⟨e.val - 500000, by have := e.isLt; omega⟩)

/-- The two value vectors laid end to end. -/
def catVal (v1 : (⟨1, ![500000]⟩ : Shape).Idx → EReal) (v3 : (⟨1, ![100000]⟩ : Shape).Idx → EReal)
    (e : Fin 600000) : EReal :=
  if h : e.val < 500000 then v1 (ix1 ⟨e.val, h⟩) else v3 (ix1 ⟨e.val - 500000, by have := e.isLt; omega⟩)

/-- Entry (o, k) of the dense matrix the 600000 nonzeros scatter into: the sum of the values whose normalised
    row and column words read (o, k). -/
def dense (i1 : IVec ⟨2, ![2, 500000]⟩ 32) (v1 : (⟨1, ![500000]⟩ : Shape).Idx → EReal)
    (i3 : IVec ⟨2, ![2, 100000]⟩ 32) (v3 : (⟨1, ![100000]⟩ : Shape).Idx → EReal) (o k : Fin 4096) : EReal :=
  ∑ e : Fin 600000, if (nrm (catIdx i1 i3 0 e)).toInt = (o.val : Int) ∧ (nrm (catIdx i1 i3 1 e)).toInt = (k.val : Int)
    then catVal v1 v3 e else 0

/-- The layer as a contraction with the dense matrix. -/
def K (x : (⟨2, ![256, 4096]⟩ : Shape).Idx → EReal) (i1 : IVec ⟨2, ![2, 500000]⟩ 32)
    (v1 : (⟨1, ![500000]⟩ : Shape).Idx → EReal) (i3 : IVec ⟨2, ![2, 100000]⟩ 32)
    (v3 : (⟨1, ![100000]⟩ : Shape).Idx → EReal) (b : (⟨1, ![4096]⟩ : Shape).Idx → EReal) :
    (⟨2, ![256, 4096]⟩ : Shape).Idx → EReal :=
  fun j => (∑ k : Fin 4096, x (ix2 (j 0) k) * dense i1 v1 i3 v3 (j 1) k) + b (ix1 (j 1))

/-- What the precondition gives: every float input is a real number, every index word lies in [0, 4096). -/
structure Good (x : (⟨2, ![256, 4096]⟩ : Shape).Idx → EReal) (i1 : IVec ⟨2, ![2, 500000]⟩ 32)
    (v1 : (⟨1, ![500000]⟩ : Shape).Idx → EReal) (i3 : IVec ⟨2, ![2, 100000]⟩ 32)
    (v3 : (⟨1, ![100000]⟩ : Shape).Idx → EReal) (b : (⟨1, ![4096]⟩ : Shape).Idx → EReal) : Prop where
  x_real : ∀ i, ∃ r : ℝ, x i = r
  v1_real : ∀ i, ∃ r : ℝ, v1 i = r
  v3_real : ∀ i, ∃ r : ℝ, v3 i = r
  b_real : ∀ i, ∃ r : ℝ, b i = r
  i1_rng : ∀ i, 0 ≤ (i1 i).toInt ∧ (i1 i).toInt < 4096
  i3_rng : ∀ i, 0 ≤ (i3 i).toInt ∧ (i3 i).toInt < 4096

end Spmm

end
-- ==== Proof.PreDecode.lean ====
/-
  The precondition read back. The statement's precondition is the conjunction of six "for all" facts, each a
  reduction by "and" of an array of truth words down to one word: four say |x| < +∞ at every entry of a float array,
  two say 0 ≤ w and w < 4096, signed, at every word of an index array. The conjunction being the word 1 gives each
  reduction the word 1; a reduction by "and" that is 1 met a 1 at every entry; and at one entry, an extended real whose
  absolute value max(x, −x) lies below +∞ is neither infinity, so it is a real number, while the two signed comparisons
  of a word against the literals 0 and 4096 are the two bounds on its signed reading.
-/
import proofs.«409742_j12378095747072_2_alg».proof.Pre_finite_inputs
import proofs.«409742_j12378095747072_2_alg».proof.Proof.SpmmSpec
import Idealize.ShloMosaic.Lib.ReduceAll
import Idealize.ShloMosaic.Lib.StableHlo.Predicate

noncomputable section

namespace Spmm

open Idealize.ShloMosaic Idealize.ShloMosaic.ValueIdx

/-- A shape with no axes has exactly one index. -/
theorem idx0_subsingleton : Subsingleton (⟨0, ![]⟩ : Shape).Idx := ⟨fun _ _ => funext fun d => d.elim0⟩

/-- An elementwise "and" of two arrays of truth words is 1 at an index exactly when both are 1 there. -/
theorem andi_at {s : Shape} (a b : IVec s 1) (i : s.Idx) (h : andi a b i = 1#1) : a i = 1#1 ∧ b i = 1#1 :=
  IntOp.andi_eq_one.1 (show IntOp.andi (a i) (b i) = 1#1 from h)

/-! ## One entry -/

/-- An extended real whose absolute value max(x, −x) is below +∞ is a real number: at either infinity the
    maximum is +∞. -/
theorem real_of_abs_lt_top (x : EReal) (h : max x (-x) < ⊤) : ∃ r : ℝ, x = r := by
  induction x with
  | bot => exact absurd h (by simp)
  | coe r => exact ⟨r, rfl⟩
  | top => exact absurd h (by simp)

/-- The pattern 0x7F800000 (sign 0, exponent all ones, fraction 0) denotes +∞. -/
theorem inf_pattern : Ideal.ofBits .f32 0x7F800000#32 = (⊤ : EReal) := by simp [Ideal.ofBits, Ideal.ieee]

/-- The truth word of the ordered comparison |x| < +∞ being 1 says x is a real number. -/
theorem real_of_lt_inf (x : EReal)
    (h : Ideal.cmp .olt (max x (-x)) (Ideal.ofBits .f32 0x7F800000#32) = 1#1) : ∃ r : ℝ, x = r := by
  rw [inf_pattern] at h
  simp only [Ideal.cmp, StableHlo.Predicate.ofBool_eq_one_iff, decide_eq_true_eq] at h
  exact real_of_abs_lt_top x h

/-- The two signed comparisons of a word against the literals 0 and 4096 are the bounds on its signed reading. -/
theorem rng_of_bits (w : BitVec 32) (h0 : IntOp.cmpi .sge w 0#32 = 1#1) (h1 : IntOp.cmpi .slt w 4096#32 = 1#1) :
    0 ≤ w.toInt ∧ w.toInt < 4096 := by
  have a := IntOp.cmpi_sge.1 h0
  have b := IntOp.cmpi_slt.1 h1
  rw [show (0#32 : BitVec 32).toInt = 0 from by decide] at a
  rw [show (4096#32 : BitVec 32).toInt = 4096 from by decide] at b
  exact ⟨a, b⟩

/-! ## One "for all": a reduction by "and", from 1, over every axis -/

/-- All of |x| < +∞ over a float array of any shape: every entry is a real number. -/
theorem all_real {s : Shape} {axes : List (Fin s.rank)} (x : FVec Ideal s .f32)
    (hb : (⟨0, ![]⟩ : Shape).BroadcastsInDim s ![]) (hr : s.ReducesTo axes ⟨0, ![]⟩)
    (h0 : 0 < (⟨0, ![]⟩ : Shape).numel)
    (h : Host.reduce IntOp.andi
        (cmpf .olt (Host.absf x) (broadcastInDim s ![] hb (constant (F := Ideal) ⟨0, ![]⟩ .f32 0x7F800000#32)))
        (constantI ⟨0, ![]⟩ 1 1#1) hr h0 ix0 = 1#1) :
    ∀ i, ∃ r : ℝ, x i = r := by
  intro i
  haveI : Subsingleton (⟨0, ![]⟩ : Shape).Idx := idx0_subsingleton
  have e := Host.reduce_andi_all _ _ hr h0 ix0 h i
  exact real_of_lt_inf (x i) e

/-- All of (0 ≤ w) ∧ (w < 4096) over an index array of any shape: every word reads, signed, in [0, 4096). -/
theorem all_rng {s : Shape} {axes : List (Fin s.rank)} (x : IVec s 32)
    (hb : (⟨0, ![]⟩ : Shape).BroadcastsInDim s ![]) (hr : s.ReducesTo axes ⟨0, ![]⟩)
    (h0 : 0 < (⟨0, ![]⟩ : Shape).numel)
    (h : Host.reduce IntOp.andi
        (andi (cmpi .sge x (broadcastInDim s ![] hb (constantI ⟨0, ![]⟩ 32 0#32)))
          (cmpi .slt x (broadcastInDim s ![] hb (constantI ⟨0, ![]⟩ 32 4096#32))))
        (constantI ⟨0, ![]⟩ 1 1#1) hr h0 ix0 = 1#1) :
    ∀ i, 0 ≤ (x i).toInt ∧ (x i).toInt < 4096 := by
  intro i
  haveI : Subsingleton (⟨0, ![]⟩ : Shape).Idx := idx0_subsingleton
  have e := Host.reduce_andi_all _ _ hr h0 ix0 h i
  obtain ⟨a, b⟩ := andi_at _ _ i e
  exact rng_of_bits (x i) a b

/-! ## The conjunction -/

/-- The precondition gives what the two readings of the layer need: real values and index words in [0, 4096).
    The six conjuncts come off the nested "and" from the outside in: the second index array, the first index array,
    the bias, the second value vector, and last the dense operand with the first value vector. -/
theorem good_of_pre [Cert.Pre_finite_inputs.Facts]
    (x0 : FVec Ideal Cert.Pre_finite_inputs.S256x4096 .f32) (x1 : IVec Cert.Pre_finite_inputs.S2x500000 32)
    (x2 : FVec Ideal Cert.Pre_finite_inputs.S500000 .f32) (x3 : IVec Cert.Pre_finite_inputs.S2x100000 32)
    (x4 : FVec Ideal Cert.Pre_finite_inputs.S100000 .f32) (x5 : FVec Ideal Cert.Pre_finite_inputs.S4096 .f32)
    (h : Cert.Pre_finite_inputs.fn (F := Ideal) x0 x1 x2 x3 x4 x5 = fun _ => 1#1) : Good x0 x1 x2 x3 x4 x5 := by
  have e := congrFun h ix0
  dsimp only [Cert.Pre_finite_inputs.fn, Cert.Pre_finite_inputs.fn_part1] at e
  obtain ⟨e, h3⟩ := andi_at _ _ _ e
  obtain ⟨e, h1⟩ := andi_at _ _ _ e
  obtain ⟨e, h5⟩ := andi_at _ _ _ e
  obtain ⟨e, h4⟩ := andi_at _ _ _ e
  obtain ⟨h0, h2⟩ := andi_at _ _ _ e
  exact ⟨all_real x0 _ _ _ h0, all_real x2 _ _ _ h2, all_real x4 _ _ _ h4, all_real x5 _ _ _ h5,
    all_rng x1 _ _ _ h1, all_rng x3 _ _ _ h3⟩

end Spmm

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.LibGatherCols.lean ====
/-
  One host indexing operation read at an index, for any extents: the gather of whole columns of a
  [B × N] array named by an [E × 1] column of column numbers (the array indexing x[:, idx]): entry (p, e) of the
  gathered [B × E] array is the operand's entry in row p and in the column e's number names, that
  number read as a signed integer and clamped into the operand's column range.
-/
import Idealize.ShloMosaic.PureOps.Ideal
import Idealize.ShloMosaic.PureOps.Contract
import Idealize.ShloMosaic.Lib.ValueIdx

noncomputable section

namespace Idealize.ShloMosaic.ColOps

open Idealize.ShloMosaic Idealize.ShloMosaic.ValueIdx

/-- Column e of the gathered array is the operand's column at e's column number, read signed and clamped into the
    operand: on operand axis 0 the slice is the whole axis, so the row coordinate passes through; operand axis 1 is
    collapsed (slice size 1) and is the one axis the start index names. -/
theorem gather_cols_apply {α : Type} {B N E w : Nat} (d : GatherDims ⟨2, ![B, N]⟩ ⟨2, ![E, 1]⟩ ⟨2, ![B, E]⟩)
    (hoff : d.offsetDims = [0]) (hcoll : d.collapsedSliceDims = [1]) (hob : d.operandBatchingDims = [])
    (hsim : d.startIndexMap = [1]) (hivd : d.indexVectorDim = 1)
    (x : (⟨2, ![B, N]⟩ : Shape).Idx → α) (idx : IVec ⟨2, ![E, 1]⟩ w) (p : Fin B) (e : Fin E) (hN : 0 < N) :
    Host.gather d x idx (ix2 p e) = x (ix2 p (⟨min (idx (ix2 e (0 : Fin 1))).toInt.toNat (N - 1), by omega⟩ : Fin N)) := by
  unfold Host.gather
  congr 1
  funext a
  -- the result's one batch axis is axis 1 (axis 0 is its offset axis); no operand axis is a batching axis
  have hbd : d.batchDims = [1] := by
    show (⟨2, ![B, E]⟩ : Shape).kept d.offsetDims = [1]
    rw [hoff]; rfl
  have hob0 : ∀ a : Fin 2, a ∉ d.operandBatchingDims := fun a => by rw [hob]; exact List.not_mem_nil
  -- every entry of a one-element list of axes is that axis, whatever position it is read at
  have hall1 : ∀ X ∈ d.batchDims, X = 1 := fun X hX => by rw [hbd] at hX; exact List.mem_singleton.1 hX
  have hall0 : ∀ X ∈ d.offsetDims, X = 0 := fun X hX => by rw [hoff] at hX; exact List.mem_singleton.1 hX
  have coord0 : ∀ X : Fin 2, X = 0 → ((ix2 p e) X).val = p.val := fun X h => by subst h; rfl
  have coord1 : ∀ X : Fin 2, X = 1 → ((ix2 p e) X).val = e.val := fun X h => by subst h; rfl
  match a with
  | ⟨0, _⟩ =>
    -- operand axis 0: not start-indexed (start 0), kept whole: the offset coordinate is the result's coordinate on axis 0
    apply Fin.ext
    have hk : (0 : Fin 2) ∈ d.sKept := by rw [GatherDims.mem_sKept, hcoll]; exact ⟨by simp, hob0 0⟩
    have hm : (0 : Fin 2) ∉ d.startIndexMap := by rw [hsim]; simp
    show d.start (ix2 p e) idx 0 + d.batchCoord (ix2 p e) 0 + d.offCoord (ix2 p e) 0 = p.val
    rw [GatherDims.batchCoord_eq_zero _ _ _ (hob0 0)]
    unfold GatherDims.start GatherDims.offCoord
    rw [dif_neg hm, dif_pos hk]
    simp only [Nat.add_zero, Nat.zero_add]
    exact coord0 _ (hall0 _ (List.getElem_mem _))
  | ⟨1, _⟩ =>
    -- operand axis 1: collapsed (slice size 1, no offset coordinate) and start-indexed: the clamped column number
    apply Fin.ext
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 p e) idx 1 + d.batchCoord (ix2 p e) 1 + d.offCoord (ix2 p e) 1 = min (idx (ix2 e 0)).toInt.toNat (N - 1)
    rw [GatherDims.batchCoord_eq_zero _ _ _ (hob0 1), GatherDims.offCoord_eq_zero _ _ _ hk]
    simp only [Nat.add_zero]
    unfold GatherDims.start
    rw [dif_pos hm]
    show min (idx _).toInt.toNat (N - d.sliceSizes 1) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord1 _ (hall1 _ (List.getElem_mem _))
    | ⟨1, _⟩ =>
      unfold GatherDims.siIdx
      rw [dif_pos (by rw [hivd])]
      apply Fin.ext
      show List.idxOf (1 : Fin 2) d.startIndexMap = 0
      rw [hsim]; simp

end Idealize.ShloMosaic.ColOps

end
-- ==== Proof.RefSide.lean ====
import proofs.«409742_j12378095747072_2_alg».proof.Proof.Gen.ReferenceIdeal.Read
import proofs.«409742_j12378095747072_2_alg».proof.Proof.SpmmSpec
import proofs.«409742_j12378095747072_2_alg».proof.Proof.LibRowGatherScatter
import proofs.«409742_j12378095747072_2_alg».proof.Proof.LibGatherCols
import Idealize.ShloMosaic.PureOps.Ideal.Laws
import Idealize.ShloMosaic.Lib.ValueIdx
/-
  The reference program computes the layer as a sum over nonzeros. For each of the two sparse matrices it gathers,
  for every nonzero e, the column of x that e's column word names (the word normalised, read signed and clamped into
  the 4096 columns), multiplies it by e's value, and adds the products, as rows of a transposed array, into the rows
  of a 4096 × 256 array of zeros that the raw row words name (a row word outside [0, 4096) lands nowhere); transposed
  back, entry (p, o) is the sum over the nonzeros whose row word reads o of x's entry (p, column of e) times e's value.
  The two shares are added and the bias is added on every row. Read index by index this is Spmm.G, for all inputs.
-/

noncomputable section

namespace Spmm

open Idealize.ShloMosaic Idealize.ShloMosaic.ValueIdx Cert.ReferenceIdeal Cert.ReferenceIdeal.Read

/-! ## The first sparse matrix (500000 nonzeros) -/

/-- The row word the first scatter reads for nonzero e is row 0 of the index array at e: the slice, the reshape and the
    broadcast to a column move it without changing it. -/
private theorem rowWord1 (xi : IVec S2x500000 32) (e : Fin 500000) :
    val_main_v16 (F := Ideal) xi (ix2 e (0 : Fin 1)) = xi (ix2 (0 : Fin 2) e) := by
  rw [val_main_v16_apply, val_main_v1_apply, val_main_v0_apply]
  refine congrArg xi ?_
  funext a
  match a with
  | ⟨0, _⟩ => rfl
  | ⟨1, _⟩ => exact Fin.ext (Nat.mod_eq_of_lt e.isLt)

/-- The raw column word of nonzero e is row 1 of the index array at e. -/
private theorem colRaw1 (xi : IVec S2x500000 32) (e : Fin 500000) :
    val_main_v3 (F := Ideal) xi (ix1 e) = xi (ix2 (1 : Fin 2) e) := by
  rw [val_main_v3_apply, val_main_v2_apply]
  refine congrArg xi ?_
  funext a
  match a with
  | ⟨0, _⟩ => rfl
  | ⟨1, _⟩ => exact Fin.ext (Nat.mod_eq_of_lt e.isLt)

/-- The column word the first gather reads for nonzero e is the normalised column word: a negative word has 4096 added. -/
private theorem colWord1 (xi : IVec S2x500000 32) (e : Fin 500000) :
    val_main_v9 (F := Ideal) xi (ix2 e (0 : Fin 1)) = nrm (xi (ix2 (1 : Fin 2) e)) := by
  have hi : idx_main_v9 (ix2 e (0 : Fin 1)) = ix1 e := by
    funext a
    match a with
    | ⟨0, _⟩ => rfl
  rw [val_main_v9_apply, hi, val_main_v8_apply, val_main_v5_apply, val_main_v7_apply, val_main_v4_apply,
    val_main_v6_apply, val_main_c_apply, val_main_c_0_apply, colRaw1]
  rfl

/-- The gathered entry (p, e): the entry of x in row p and in the column nonzero e names. -/
private theorem gath1 (x0 : FVec Ideal S256x4096 .f32) (xi : IVec S2x500000 32) (p : Fin 256) (e : Fin 500000) :
    val_main_v10 (F := Ideal) x0 xi (ix2 p e) = x0 (ix2 p (colOf (xi (ix2 (1 : Fin 2) e)))) := by
  unfold val_main_v10
  rw [ColOps.gather_cols_apply gather_S256x4096_S500000x1_S256x500000_0_1_n_n_1_1_2561 rfl rfl rfl rfl rfl _ _ p e (by decide)]
  refine congrArg (fun c : Fin 4096 => x0 (ix2 p c)) (Fin.ext ?_)
  show min (val_main_v9 (F := Ideal) xi (ix2 e (0 : Fin 1))).toInt.toNat 4095
    = min (nrm (xi (ix2 (1 : Fin 2) e))).toInt.toNat 4095
  rw [colWord1]

/-- The value the gathered entry (p, e) is multiplied by is the value of nonzero e, whatever the row p. -/
private theorem valAt1 (xv : FVec Ideal S500000 .f32) (p : Fin 256) (e : Fin 500000) :
    val_main_v12 (F := Ideal) xv (ix2 p e) = xv (ix1 e) := by
  rw [val_main_v12_apply, val_main_v11_apply]
  refine congrArg xv ?_
  funext a
  match a with
  | ⟨0, _⟩ => rfl

/-- The update the first scatter adds for nonzero e in column p: x's entry (p, column of e) times e's value. -/
private theorem upd1 (x0 : FVec Ideal S256x4096 .f32) (xi : IVec S2x500000 32) (xv : FVec Ideal S500000 .f32)
    (e : Fin 500000) (p : Fin 256) :
    val_main_v14 (F := Ideal) x0 xi xv (ix2 e p) = x0 (ix2 p (colOf (xi (ix2 (1 : Fin 2) e)))) * xv (ix1 e) := by
  have hi : idx_main_v14 (ix2 e p) = ix2 p e := by
    funext a
    match a with
    | ⟨0, _⟩ => rfl
    | ⟨1, _⟩ => rfl
  rw [val_main_v14_apply, hi, val_main_v13_apply, Ideal.mulf_def, gath1, valAt1]

/-- The first matrix's share of entry (p, o): the scatter starts from zeros and adds, over the nonzeros whose row word
    reads o, the update in column p. -/
theorem ref_part1 (x0 : FVec Ideal S256x4096 .f32) (xi : IVec S2x500000 32) (xv : FVec Ideal S500000 .f32)
    (p : Fin 256) (o : Fin 4096) :
    val_main_v18 (F := Ideal) x0 xi xv (ix2 p o) = part x0 xi xv p o := by
  have hi : idx_main_v18 (ix2 p o) = ix2 o p := by
    funext a
    match a with
    | ⟨0, _⟩ => rfl
    | ⟨1, _⟩ => rfl
  have h0 : val_main_v15 (F := Ideal) (ix2 o p) = (0 : EReal) := by
    rw [val_main_v15_apply, val_main_cst_apply]
    exact Ideal.ofBits_zero_f32
  rw [val_main_v18_apply, hi]
  unfold val_main_v17 Host.scatterAdd
  rw [Ideal.hostScatterAdd_def,
    RowOps.scatterAdd_rows_apply scatter_S4096x256_S500000x1_S500000x256_1_0_0_1 rfl rfl rfl rfl, h0, zero_add]
  unfold part
  refine Finset.sum_congr rfl fun e _ => ?_
  rw [rowWord1, upd1]

/-! ## The second sparse matrix (100000 nonzeros) -/

/-- The row word the second scatter reads for nonzero e is row 0 of the index array at e: the slice, the reshape and the
    broadcast to a column move it without changing it. -/
private theorem rowWord2 (xi : IVec S2x100000 32) (e : Fin 100000) :
    val_main_v35 (F := Ideal) xi (ix2 e (0 : Fin 1)) = xi (ix2 (0 : Fin 2) e) := by
  rw [val_main_v35_apply, val_main_v20_apply, val_main_v19_apply]
  refine congrArg xi ?_
  funext a
  match a with
  | ⟨0, _⟩ => rfl
  | ⟨1, _⟩ => exact Fin.ext (Nat.mod_eq_of_lt e.isLt)

/-- The raw column word of nonzero e is row 1 of the index array at e. -/
private theorem colRaw2 (xi : IVec S2x100000 32) (e : Fin 100000) :
    val_main_v22 (F := Ideal) xi (ix1 e) = xi (ix2 (1 : Fin 2) e) := by
  rw [val_main_v22_apply, val_main_v21_apply]
  refine congrArg xi ?_
  funext a
  match a with
  | ⟨0, _⟩ => rfl
  | ⟨1, _⟩ => exact Fin.ext (Nat.mod_eq_of_lt e.isLt)

/-- The column word the second gather reads for nonzero e is the normalised column word: a negative word has 4096 added. -/
private theorem colWord2 (xi : IVec S2x100000 32) (e : Fin 100000) :
    val_main_v28 (F := Ideal) xi (ix2 e (0 : Fin 1)) = nrm (xi (ix2 (1 : Fin 2) e)) := by
  have hi : idx_main_v28 (ix2 e (0 : Fin 1)) = ix1 e := by
    funext a
    match a with
    | ⟨0, _⟩ => rfl
  rw [val_main_v28_apply, hi, val_main_v27_apply, val_main_v24_apply, val_main_v26_apply, val_main_v23_apply,
    val_main_v25_apply, val_main_c_1_apply, val_main_c_2_apply, colRaw2]
  rfl

/-- The gathered entry (p, e): the entry of x in row p and in the column nonzero e names. -/
private theorem gath2 (x0 : FVec Ideal S256x4096 .f32) (xi : IVec S2x100000 32) (p : Fin 256) (e : Fin 100000) :
    val_main_v29 (F := Ideal) x0 xi (ix2 p e) = x0 (ix2 p (colOf (xi (ix2 (1 : Fin 2) e)))) := by
  unfold val_main_v29
  rw [ColOps.gather_cols_apply gather_S256x4096_S100000x1_S256x100000_0_1_n_n_1_1_2561 rfl rfl rfl rfl rfl _ _ p e (by decide)]
  refine congrArg (fun c : Fin 4096 => x0 (ix2 p c)) (Fin.ext ?_)
  show min (val_main_v28 (F := Ideal) xi (ix2 e (0 : Fin 1))).toInt.toNat 4095
    = min (nrm (xi (ix2 (1 : Fin 2) e))).toInt.toNat 4095
  rw [colWord2]

/-- The value the gathered entry (p, e) is multiplied by is the value of nonzero e, whatever the row p. -/
private theorem valAt2 (xv : FVec Ideal S100000 .f32) (p : Fin 256) (e : Fin 100000) :
    val_main_v31 (F := Ideal) xv (ix2 p e) = xv (ix1 e) := by
  rw [val_main_v31_apply, val_main_v30_apply]
  refine congrArg xv ?_
  funext a
  match a with
  | ⟨0, _⟩ => rfl

/-- The update the second scatter adds for nonzero e in column p: x's entry (p, column of e) times e's value. -/
private theorem upd2 (x0 : FVec Ideal S256x4096 .f32) (xi : IVec S2x100000 32) (xv : FVec Ideal S100000 .f32)
    (e : Fin 100000) (p : Fin 256) :
    val_main_v33 (F := Ideal) x0 xi xv (ix2 e p) = x0 (ix2 p (colOf (xi (ix2 (1 : Fin 2) e)))) * xv (ix1 e) := by
  have hi : idx_main_v33 (ix2 e p) = ix2 p e := by
    funext a
    match a with
    | ⟨0, _⟩ => rfl
    | ⟨1, _⟩ => rfl
  rw [val_main_v33_apply, hi, val_main_v32_apply, Ideal.mulf_def, gath2, valAt2]

/-- The second matrix's share of entry (p, o): the scatter starts from zeros and adds, over the nonzeros whose row word
    reads o, the update in column p. -/
theorem ref_part2 (x0 : FVec Ideal S256x4096 .f32) (xi : IVec S2x100000 32) (xv : FVec Ideal S100000 .f32)
    (p : Fin 256) (o : Fin 4096) :
    val_main_v37 (F := Ideal) x0 xi xv (ix2 p o) = part x0 xi xv p o := by
  have hi : idx_main_v37 (ix2 p o) = ix2 o p := by
    funext a
    match a with
    | ⟨0, _⟩ => rfl
    | ⟨1, _⟩ => rfl
  have h0 : val_main_v34 (F := Ideal) (ix2 o p) = (0 : EReal) := by
    rw [val_main_v34_apply, val_main_cst_3_apply]
    exact Ideal.ofBits_zero_f32
  rw [val_main_v37_apply, hi]
  unfold val_main_v36 Host.scatterAdd
  rw [Ideal.hostScatterAdd_def,
    RowOps.scatterAdd_rows_apply scatter_S4096x256_S100000x1_S100000x256_1_0_0_1 rfl rfl rfl rfl, h0, zero_add]
  unfold part
  refine Finset.sum_congr rfl fun e _ => ?_
  rw [rowWord2, upd2]

/-! ## The two shares and the bias -/

/-- The bias broadcast over the rows: entry (p, o) is the bias at o. -/
private theorem biasAt (x5 : FVec Ideal S4096 .f32) (p : Fin 256) (o : Fin 4096) :
    val_main_v40 (F := Ideal) x5 (ix2 p o) = x5 (ix1 o) := by
  rw [val_main_v40_apply, val_main_v39_apply]
  refine congrArg x5 ?_
  funext a
  match a with
  | ⟨0, _⟩ => rfl

/-- The reference program's result is the layer written as a sum over nonzeros, for all inputs. -/
theorem ref_eq_G (x0 : FVec Ideal Cert.ReferenceIdeal.S256x4096 .f32) (x1 : IVec Cert.ReferenceIdeal.S2x500000 32)
    (x2 : FVec Ideal Cert.ReferenceIdeal.S500000 .f32) (x3 : IVec Cert.ReferenceIdeal.S2x100000 32)
    (x4 : FVec Ideal Cert.ReferenceIdeal.S100000 .f32) (x5 : FVec Ideal Cert.ReferenceIdeal.S4096 .f32) :
    Cert.ReferenceIdeal.Read.val_main_v41 (F := Ideal) x0 x1 x2 x3 x4 x5 = Spmm.G x0 x1 x2 x3 x4 x5 := by
  funext j
  obtain ⟨p, o, rfl⟩ : ∃ (p : Fin 256) (o : Fin 4096), j = ix2 p o := ⟨j 0, j 1, eq_ix2 j⟩
  show val_main_v41 (F := Ideal) x0 x1 x2 x3 x4 x5 (ix2 p o)
    = (part x0 x1 x2 p o + part x0 x3 x4 p o) + x5 (ix1 o)
  rw [val_main_v41_apply, val_main_v38_apply, Ideal.addf_def, Ideal.addf_def, ref_part1, ref_part2, biasAt]

end Spmm

end
-- ==== Proof.LibGcnSum.lean ====
/-
  Finite-sum algebra for a graph convolution written two ways.

  A dense adjacency built by scattering edge weights, then contracted against a feature
  matrix, is the edge sum a gather / segment-sum computes; two successive contractions
  commute; a zero-padded sum is the unpadded one; a sum over `Fin (b * t)` is a double sum
  over blocks.  The distributive statements are proved in `ℝ` and then lifted to families
  of extended reals all of whose entries are reals; the purely additive statements hold in
  every additive commutative monoid, the extended reals among them.
-/
import Mathlib.Data.EReal.Basic
import Mathlib.Data.EReal.Operations
import Mathlib.Algebra.BigOperators.Fin
import Mathlib.Algebra.BigOperators.Ring.Finset
import Mathlib.Algebra.BigOperators.Group.Finset.Basic
import Mathlib.Algebra.BigOperators.Group.Finset.Piecewise
import Mathlib.Logic.Equiv.Fin.Basic

namespace GcnSum

open scoped BigOperators

/-! ## Additive statements: zero padding and blocks -/

section Additive
variable {M : Type*} [AddCommMonoid M]

/-- A sum over `Fin (n + p)` whose terms vanish from index `n` on is the sum over `Fin n`. -/
theorem sum_fin_add_of_zero {n p : ℕ} (f : Fin (n + p) → M)
    (hz : ∀ i : Fin (n + p), n ≤ i.val → f i = 0) :
    ∑ i, f i = ∑ i : Fin n, f (Fin.castAdd p i) := by
  rw [Fin.sum_univ_add, Finset.sum_eq_zero (fun i _ => hz (Fin.natAdd n i) (by simp)), add_zero]

/-- A sum over `Fin m` whose terms vanish from index `n ≤ m` on is the sum over `Fin n`. -/
theorem sum_fin_of_le_of_zero {n m : ℕ} (hnm : n ≤ m) (f : Fin m → M)
    (hz : ∀ i : Fin m, n ≤ i.val → f i = 0) :
    ∑ i, f i = ∑ i : Fin n, f (Fin.castLE hnm i) := by
  obtain ⟨p, rfl⟩ := Nat.exists_eq_add_of_le hnm
  rw [sum_fin_add_of_zero f hz]
  exact Finset.sum_congr rfl fun i _ => congrArg f (Fin.ext rfl)

/-- The same with the summand given on naturals: the padded and the unpadded sum of
    `g i.val` agree when `g` vanishes on `[n, m)`. -/
theorem sum_fin_val_of_le_of_zero {n m : ℕ} (hnm : n ≤ m) (g : ℕ → M)
    (hz : ∀ k, n ≤ k → k < m → g k = 0) :
    ∑ i : Fin m, g i.val = ∑ i : Fin n, g i.val := by
  exact sum_fin_of_le_of_zero hnm (fun i => g i.val) (fun i hi => hz _ hi i.isLt)

/-- A sum over `Fin (b * t)` as a sum over `b` blocks of `t` terms: the index of block `q`,
    offset `r` is `finProdFinEquiv (q, r)`, whose value is `r + t * q`. -/
theorem sum_fin_mul_blocks {b t : ℕ} (f : Fin (b * t) → M) :
    ∑ i, f i = ∑ q : Fin b, ∑ r : Fin t, f (finProdFinEquiv (q, r)) := by
  rw [← Equiv.sum_comp finProdFinEquiv f, Fintype.sum_prod_type]

/-- The value of the block index. -/
theorem finProdFinEquiv_val {b t : ℕ} (q : Fin b) (r : Fin t) :
    (finProdFinEquiv (q, r) : Fin (b * t)).val = r.val + t * q.val := rfl

/-- The block form with the summand given on naturals. -/
theorem sum_fin_mul_blocks_val {b t : ℕ} (g : ℕ → M) :
    ∑ i : Fin (b * t), g i.val = ∑ q : Fin b, ∑ r : Fin t, g (r.val + t * q.val) := by
  exact sum_fin_mul_blocks (fun i => g i.val)

/-- An indicator sum is the sum over the filtered set. -/
theorem sum_ite_eq_sum_filter {E : Type*} [Fintype E] (p : E → Prop) [DecidablePred p] (f : E → M) :
    (∑ e, if p e then f e else 0) = ∑ e ∈ Finset.univ.filter p, f e := by
  exact (Finset.sum_filter p f).symm

end Additive

/-! ## Distributive statements in the reals -/

section Real
variable {E I J K : Type*} [Fintype E] [Fintype J] [Fintype K] [DecidableEq I] [DecidableEq J]

/-- Scatter, then contract: the dense matrix `A i j = ∑ e, [d e = i ∧ s e = j] w e` applied to
    `h` is the sum over the edges into `i` of `w e * h (s e)`. -/
theorem scatter_contract (d : E → I) (s : E → J) (w : E → ℝ) (h : J → ℝ) (i : I) :
    ∑ j, (∑ e, if d e = i ∧ s e = j then w e else 0) * h j
      = ∑ e, if d e = i then w e * h (s e) else 0 := by
  simp_rw [Finset.sum_mul]
  rw [Finset.sum_comm]
  refine Finset.sum_congr rfl fun e _ => ?_
  by_cases hd : d e = i
  · simp [hd]
  · simp [hd]

/-- Two contractions commute: `(a · X) · y = a · (X · y)`. -/
theorem contract_comm (a : J → ℝ) (x : J → K → ℝ) (y : K → ℝ) :
    ∑ k, (∑ j, a j * x j k) * y k = ∑ j, a j * ∑ k, x j k * y k := by
  simp_rw [Finset.sum_mul, Finset.mul_sum]
  rw [Finset.sum_comm]
  exact Finset.sum_congr rfl fun j _ => Finset.sum_congr rfl fun k _ => mul_assoc _ _ _

end Real

/-! ## The coercion from the reals and finite sums -/

section Coe

/-- The coercion `ℝ → EReal` commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion commutes with a conditional whose other branch is zero. -/
theorem coe_ite_zero (p : Prop) [Decidable p] (a : ℝ) :
    ((if p then a else 0 : ℝ) : EReal) = if p then (a : EReal) else 0 := by
  split_ifs <;> simp

/-- A finite sum of reals is a real. -/
theorem exists_real_sum {ι : Type*} (s : Finset ι) (f : ι → EReal) (hf : ∀ i ∈ s, ∃ r : ℝ, f i = r) :
    ∃ r : ℝ, ∑ i ∈ s, f i = r := by
  refine ⟨∑ i ∈ s, (f i).toReal, ?_⟩
  rw [coe_sum]
  refine Finset.sum_congr rfl fun i hi => ?_
  obtain ⟨r, hr⟩ := hf i hi
  rw [hr, EReal.toReal_coe]

/-- A product of two reals is a real. -/
theorem exists_real_mul {x y : EReal} (hx : ∃ r : ℝ, x = r) (hy : ∃ r : ℝ, y = r) :
    ∃ r : ℝ, x * y = r := by
  obtain ⟨a, rfl⟩ := hx
  obtain ⟨b, rfl⟩ := hy
  exact ⟨a * b, (EReal.coe_mul a b).symm⟩

/-- A sum of two reals is a real. -/
theorem exists_real_add {x y : EReal} (hx : ∃ r : ℝ, x = r) (hy : ∃ r : ℝ, y = r) :
    ∃ r : ℝ, x + y = r := by
  obtain ⟨a, rfl⟩ := hx
  obtain ⟨b, rfl⟩ := hy
  exact ⟨a + b, (EReal.coe_add a b).symm⟩

/-- A finite sum of products of reals is a real. -/
theorem exists_real_sum_mul {ι : Type*} [Fintype ι] (f g : ι → EReal) (hf : ∀ i, ∃ r : ℝ, f i = r)
    (hg : ∀ i, ∃ r : ℝ, g i = r) : ∃ r : ℝ, ∑ i, f i * g i = r := by
  exact exists_real_sum _ _ fun i _ => exists_real_mul (hf i) (hg i)

end Coe

/-! ## The distributive statements for families of extended reals with real entries -/

section EReal
variable {E I J K : Type*} [Fintype E] [Fintype J] [Fintype K] [DecidableEq I] [DecidableEq J]

/-- `scatter_contract` for extended reals, every weight and every feature a real. -/
theorem scatter_contract_ereal (d : E → I) (s : E → J) (w : E → EReal) (h : J → EReal)
    (hw : ∀ e, ∃ r : ℝ, w e = r) (hh : ∀ j, ∃ r : ℝ, h j = r) (i : I) :
    ∑ j, (∑ e, if d e = i ∧ s e = j then w e else 0) * h j
      = ∑ e, if d e = i then w e * h (s e) else 0 := by
  choose wr hwr using hw
  choose hr hhr using hh
  have key := congrArg (fun t : ℝ => (t : EReal)) (scatter_contract d s wr hr i)
  simp only [coe_sum, EReal.coe_mul, coe_ite_zero] at key
  simp only [hwr, hhr]
  exact key

/-- The same with both sides as sums over filtered sets of edges. -/
theorem scatter_contract_ereal_filter (d : E → I) (s : E → J) (w : E → EReal) (h : J → EReal)
    (hw : ∀ e, ∃ r : ℝ, w e = r) (hh : ∀ j, ∃ r : ℝ, h j = r) (i : I) :
    ∑ j, (∑ e ∈ Finset.univ.filter (fun e => d e = i ∧ s e = j), w e) * h j
      = ∑ e ∈ Finset.univ.filter (fun e => d e = i), w e * h (s e) := by
  simp only [Finset.sum_filter]
  exact scatter_contract_ereal d s w h hw hh i

/-- `contract_comm` for extended reals, every entry a real. -/
theorem contract_comm_ereal (a : J → EReal) (x : J → K → EReal) (y : K → EReal)
    (ha : ∀ j, ∃ r : ℝ, a j = r) (hx : ∀ j k, ∃ r : ℝ, x j k = r) (hy : ∀ k, ∃ r : ℝ, y k = r) :
    ∑ k, (∑ j, a j * x j k) * y k = ∑ j, a j * ∑ k, x j k * y k := by
  choose ar har using ha
  choose xr hxr using hx
  choose yr hyr using hy
  have key := congrArg (fun t : ℝ => (t : EReal)) (contract_comm ar xr yr)
  simp only [coe_sum, EReal.coe_mul] at key
  simp only [har, hxr, hyr]
  exact key

/-- A real factor distributes over a finite sum of reals (extended-real form of `Finset.mul_sum`). -/
theorem mul_sum_ereal {ι : Type*} (t : Finset ι) (c : EReal) (f : ι → EReal) (hc : ∃ r : ℝ, c = r)
    (hf : ∀ i ∈ t, ∃ r : ℝ, f i = r) : c * ∑ i ∈ t, f i = ∑ i ∈ t, c * f i := by
  obtain ⟨c', rfl⟩ := hc
  have hfg : ∀ i ∈ t, f i = ((f i).toReal : EReal) := fun i hi => by
    obtain ⟨r, hr⟩ := hf i hi
    rw [hr, EReal.toReal_coe]
  rw [Finset.sum_congr rfl hfg, ← coe_sum, ← EReal.coe_mul, Finset.mul_sum, coe_sum]
  refine Finset.sum_congr rfl fun i hi => ?_
  rw [EReal.coe_mul, ← hfg i hi]

/-- The same on the right. -/
theorem sum_mul_ereal {ι : Type*} (t : Finset ι) (c : EReal) (f : ι → EReal) (hc : ∃ r : ℝ, c = r)
    (hf : ∀ i ∈ t, ∃ r : ℝ, f i = r) : (∑ i ∈ t, f i) * c = ∑ i ∈ t, f i * c := by
  calc (∑ i ∈ t, f i) * c = c * ∑ i ∈ t, f i := EReal.mul_comm _ _
    _ = ∑ i ∈ t, c * f i := mul_sum_ereal t c f hc hf
    _ = ∑ i ∈ t, f i * c := Finset.sum_congr rfl fun i _ => EReal.mul_comm _ _

end EReal

end GcnSum
-- ==== Proof.Bridge.lean ====
/-
  The two readings of the sparse layer agree on good inputs.

  The contraction reading multiplies x with the dense 4096 × 4096 matrix into which the 600000 nonzeros of the two
  sparse matrices, laid end to end, are scattered; the edge reading sums, for each output entry, over the nonzeros whose
  row word names it. When every index word lies in [0, 4096) the normalisation of a word is the word itself and the
  clamp of its column is its value, so "the column word reads k" is "the column is k"; when every value is a real
  number the product distributes over the finite sums, and the contraction against the scattered matrix is the edge
  sum. The edge sum over the 600000 nonzeros then splits into the first 500000 and the last 100000.
-/
import proofs.«409742_j12378095747072_2_alg».proof.Proof.SpmmSpec
import proofs.«409742_j12378095747072_2_alg».proof.Proof.LibGcnSum
import Mathlib.Algebra.BigOperators.Fin
import Mathlib.Algebra.BigOperators.Group.Finset.Basic
import Mathlib.Data.EReal.Basic
import Mathlib.Logic.Basic

noncomputable section

namespace Spmm

open scoped BigOperators
open Idealize.ShloMosaic Idealize.ShloMosaic.ValueIdx

/-! ## Words in range: the normalisation and the clamp do nothing -/

/-- A word that reads non-negative is not below zero in the signed order. -/
theorem cmpi_slt_zero (w : BitVec 32) (h0 : 0 ≤ w.toInt) : IntOp.cmpi .slt w 0#32 = 0#1 := by
  have hz : (0#32 : BitVec 32).toInt = 0 := by decide
  have hs : w.slt 0#32 = false := by
    simp only [BitVec.slt, hz]
    exact decide_eq_false (Int.not_lt.mpr h0)
  show BitVec.ofBool (w.slt 0#32) = 0#1
  exact congrArg BitVec.ofBool hs

/-- A non-negative word is kept by the normalisation. -/
theorem nrm_of_rng (w : BitVec 32) (h0 : 0 ≤ w.toInt) : nrm w = w := by
  unfold nrm
  rw [cmpi_slt_zero w h0]
  exact select_zero _ _

/-- The column a word in [0, 4096) names is its value. -/
theorem colOf_of_rng (w : BitVec 32) (h0 : 0 ≤ w.toInt) (h1 : w.toInt < 4096) :
    (colOf w).val = w.toInt.toNat := by
  show min (nrm w).toInt.toNat 4095 = w.toInt.toNat
  rw [nrm_of_rng w h0]
  omega

/-- For a word in [0, 4096), "the word reads k" is "the column it names is k". -/
theorem toInt_eq_iff_colOf (w : BitVec 32) (h0 : 0 ≤ w.toInt) (h1 : w.toInt < 4096) (k : Fin 4096) :
    w.toInt = (k.val : Int) ↔ colOf w = k := by
  have hv : (colOf w).val = w.toInt.toNat := colOf_of_rng w h0 h1
  constructor
  · intro hk
    apply Fin.ext
    rw [hv]
    omega
  · intro hk
    subst hk
    rw [hv]
    omega

/-! ## A sum over an interval of naturals split at a point -/

/-- A sum over Fin N with N = n + m is the sum over the first n indices plus the sum over the last m. -/
theorem sum_fin_split {M : Type*} [AddCommMonoid M] {n m N : ℕ} (hN : n + m = N) (f : Fin N → M) :
    ∑ e : Fin N, f e
      = ∑ e : Fin n, f ⟨e.val, by omega⟩ + ∑ e : Fin m, f ⟨n + e.val, by omega⟩ := by
  subst hN
  exact Fin.sum_univ_add f

/-! ## The two arrays laid end to end, read on either side of the seam -/

section Cat
variable {i1 : IVec ⟨2, ![2, 500000]⟩ 32} {i3 : IVec ⟨2, ![2, 100000]⟩ 32}
  {v1 : (⟨1, ![500000]⟩ : Shape).Idx → EReal} {v3 : (⟨1, ![100000]⟩ : Shape).Idx → EReal}

/-- Before the seam the index array read is the first one. -/
theorem catIdx_lo (r : Fin 2) (e : Fin 500000) (he : e.val < 600000) :
    catIdx i1 i3 r ⟨e.val, he⟩ = i1 (ix2 r e) := by
  unfold catIdx
  exact dif_pos e.isLt

/-- From the seam on the index array read is the second one, at the offset past the seam. -/
theorem catIdx_hi (r : Fin 2) (e : Fin 100000) (he : 500000 + e.val < 600000) :
    catIdx i1 i3 r ⟨500000 + e.val, he⟩ = i3 (ix2 r e) := by
  have hn : ¬ ((⟨500000 + e.val, he⟩ : Fin 600000).val < 500000) := by
    show ¬ (500000 + e.val < 500000)
    omega
  have hi : ∀ hlt : 500000 + e.val - 500000 < 100000,
      (⟨500000 + e.val - 500000, hlt⟩ : Fin 100000) = e := fun _ => Fin.ext (by
        show 500000 + e.val - 500000 = e.val
        omega)
  unfold catIdx
  exact (dif_neg hn).trans (congrArg (fun t => i3 (ix2 r t)) (hi _))

/-- Before the seam the value read is the first vector's. -/
theorem catVal_lo (e : Fin 500000) (he : e.val < 600000) :
    catVal v1 v3 ⟨e.val, he⟩ = v1 (ix1 e) := by
  unfold catVal
  exact dif_pos e.isLt

/-- From the seam on the value read is the second vector's. -/
theorem catVal_hi (e : Fin 100000) (he : 500000 + e.val < 600000) :
    catVal v1 v3 ⟨500000 + e.val, he⟩ = v3 (ix1 e) := by
  have hn : ¬ ((⟨500000 + e.val, he⟩ : Fin 600000).val < 500000) := by
    show ¬ (500000 + e.val < 500000)
    omega
  have hi : ∀ hlt : 500000 + e.val - 500000 < 100000,
      (⟨500000 + e.val - 500000, hlt⟩ : Fin 100000) = e := fun _ => Fin.ext (by
        show 500000 + e.val - 500000 = e.val
        omega)
  unfold catVal
  exact (dif_neg hn).trans (congrArg (fun t => v3 (ix1 t)) (hi _))

end Cat

/-! ## What the precondition gives for the arrays laid end to end -/

section Good
variable {x : (⟨2, ![256, 4096]⟩ : Shape).Idx → EReal} {i1 : IVec ⟨2, ![2, 500000]⟩ 32}
  {v1 : (⟨1, ![500000]⟩ : Shape).Idx → EReal} {i3 : IVec ⟨2, ![2, 100000]⟩ 32}
  {v3 : (⟨1, ![100000]⟩ : Shape).Idx → EReal} {b : (⟨1, ![4096]⟩ : Shape).Idx → EReal}

/-- Every word of the joined index array lies in [0, 4096). -/
theorem catIdx_rng (h : Good x i1 v1 i3 v3 b) (r : Fin 2) (e : Fin 600000) :
    0 ≤ (catIdx i1 i3 r e).toInt ∧ (catIdx i1 i3 r e).toInt < 4096 := by
  by_cases hlt : e.val < 500000
  · have hc : catIdx i1 i3 r e = i1 (ix2 r ⟨e.val, hlt⟩) := dif_pos hlt
    rw [hc]
    exact h.i1_rng _
  · have hc : catIdx i1 i3 r e = i3 (ix2 r ⟨e.val - 500000, by omega⟩) := dif_neg hlt
    rw [hc]
    exact h.i3_rng _

/-- Every entry of the joined value vector is a real number. -/
theorem catVal_real (h : Good x i1 v1 i3 v3 b) (e : Fin 600000) : ∃ r : ℝ, catVal v1 v3 e = r := by
  by_cases hlt : e.val < 500000
  · have hc : catVal v1 v3 e = v1 (ix1 ⟨e.val, hlt⟩) := dif_pos hlt
    rw [hc]
    exact h.v1_real _
  · have hc : catVal v1 v3 e = v3 (ix1 ⟨e.val - 500000, by omega⟩) := dif_neg hlt
    rw [hc]
    exact h.v3_real _

/-- Entry (o, k) of the dense matrix with the normalisation removed and the column test read on columns. -/
theorem dense_eq (h : Good x i1 v1 i3 v3 b) (o k : Fin 4096) :
    dense i1 v1 i3 v3 o k = ∑ e : Fin 600000,
      if (catIdx i1 i3 0 e).toInt = (o.val : Int) ∧ colOf (catIdx i1 i3 1 e) = k
        then catVal v1 v3 e else 0 := by
  unfold dense
  refine Finset.sum_congr rfl fun e _ => ?_
  obtain ⟨a0, _⟩ := catIdx_rng h 0 e
  obtain ⟨c0, c1⟩ := catIdx_rng h 1 e
  have e0 : nrm (catIdx i1 i3 0 e) = catIdx i1 i3 0 e := nrm_of_rng _ a0
  have e1 : nrm (catIdx i1 i3 1 e) = catIdx i1 i3 1 e := nrm_of_rng _ c0
  refine if_congr (and_congr ?_ ?_) rfl rfl
  · rw [e0]
  · rw [e1]
    exact toInt_eq_iff_colOf _ c0 c1 k

/-- The contraction of a row of x with the dense matrix is the sum over the nonzeros whose row word names the
    output: the distributive law, every value and every entry of x being a real number. -/
theorem contract_eq (h : Good x i1 v1 i3 v3 b) (p : Fin 256) (o : Fin 4096) :
    ∑ k : Fin 4096, x (ix2 p k) * dense i1 v1 i3 v3 o k
      = ∑ e : Fin 600000, if (catIdx i1 i3 0 e).toInt = (o.val : Int)
          then x (ix2 p (colOf (catIdx i1 i3 1 e))) * catVal v1 v3 e else 0 := by
  have hsc : ∑ k : Fin 4096, (∑ e : Fin 600000,
        if (catIdx i1 i3 0 e).toInt = (o.val : Int) ∧ colOf (catIdx i1 i3 1 e) = k
          then catVal v1 v3 e else 0) * x (ix2 p k)
      = ∑ e : Fin 600000, if (catIdx i1 i3 0 e).toInt = (o.val : Int)
          then catVal v1 v3 e * x (ix2 p (colOf (catIdx i1 i3 1 e))) else 0 :=
    GcnSum.scatter_contract_ereal (fun e : Fin 600000 => (catIdx i1 i3 0 e).toInt)
      (fun e : Fin 600000 => colOf (catIdx i1 i3 1 e)) (catVal v1 v3) (fun k : Fin 4096 => x (ix2 p k))
      (catVal_real h) (fun k => h.x_real (ix2 p k)) (o.val : Int)
  calc ∑ k : Fin 4096, x (ix2 p k) * dense i1 v1 i3 v3 o k
      = ∑ k : Fin 4096, (∑ e : Fin 600000,
          if (catIdx i1 i3 0 e).toInt = (o.val : Int) ∧ colOf (catIdx i1 i3 1 e) = k
            then catVal v1 v3 e else 0) * x (ix2 p k) := by
        refine Finset.sum_congr rfl fun k _ => ?_
        rw [EReal.mul_comm (x (ix2 p k)) (dense i1 v1 i3 v3 o k), dense_eq h o k]
    _ = ∑ e : Fin 600000, if (catIdx i1 i3 0 e).toInt = (o.val : Int)
          then catVal v1 v3 e * x (ix2 p (colOf (catIdx i1 i3 1 e))) else 0 := hsc
    _ = ∑ e : Fin 600000, if (catIdx i1 i3 0 e).toInt = (o.val : Int)
          then x (ix2 p (colOf (catIdx i1 i3 1 e))) * catVal v1 v3 e else 0 := by
        refine Finset.sum_congr rfl fun e _ => ?_
        exact if_congr Iff.rfl (EReal.mul_comm _ _) rfl

end Good

/-! ## The edge sum over the joined arrays is the two matrices' shares -/

section Split
variable {x : (⟨2, ![256, 4096]⟩ : Shape).Idx → EReal} {i1 : IVec ⟨2, ![2, 500000]⟩ 32}
  {v1 : (⟨1, ![500000]⟩ : Shape).Idx → EReal} {i3 : IVec ⟨2, ![2, 100000]⟩ 32}
  {v3 : (⟨1, ![100000]⟩ : Shape).Idx → EReal}

/-- The nonzeros before the seam give the first matrix's share. -/
theorem edge_sum_lo (p : Fin 256) (o : Fin 4096) (he : ∀ e : Fin 500000, e.val < 600000) :
    (∑ e : Fin 500000, if (catIdx i1 i3 0 ⟨e.val, he e⟩).toInt = (o.val : Int)
        then x (ix2 p (colOf (catIdx i1 i3 1 ⟨e.val, he e⟩))) * catVal v1 v3 ⟨e.val, he e⟩ else 0)
      = part x i1 v1 p o := by
  unfold part
  refine Finset.sum_congr rfl fun e _ => ?_
  rw [catIdx_lo 0 e (he e), catIdx_lo 1 e (he e), catVal_lo e (he e)]

/-- The nonzeros from the seam on give the second matrix's share. -/
theorem edge_sum_hi (p : Fin 256) (o : Fin 4096) (he : ∀ e : Fin 100000, 500000 + e.val < 600000) :
    (∑ e : Fin 100000, if (catIdx i1 i3 0 ⟨500000 + e.val, he e⟩).toInt = (o.val : Int)
        then x (ix2 p (colOf (catIdx i1 i3 1 ⟨500000 + e.val, he e⟩))) * catVal v1 v3 ⟨500000 + e.val, he e⟩
        else 0)
      = part x i3 v3 p o := by
  unfold part
  refine Finset.sum_congr rfl fun e _ => ?_
  rw [catIdx_hi 0 e (he e), catIdx_hi 1 e (he e), catVal_hi e (he e)]

/-- The edge sum over the 600000 joined nonzeros is the sum of the two shares. -/
theorem edge_sum_split (p : Fin 256) (o : Fin 4096) :
    (∑ e : Fin 600000, if (catIdx i1 i3 0 e).toInt = (o.val : Int)
        then x (ix2 p (colOf (catIdx i1 i3 1 e))) * catVal v1 v3 e else 0)
      = part x i1 v1 p o + part x i3 v3 p o := by
  rw [sum_fin_split (n := 500000) (m := 100000) (N := 600000) (by omega)]
  exact congrArg₂ (· + ·) (edge_sum_lo p o fun e => by omega) (edge_sum_hi p o fun e => by omega)

end Split

/-! ## The two readings agree -/

/-- On good inputs the contraction with the scattered dense matrix is the sum over the nonzeros. -/
theorem K_eq_G (x : (⟨2, ![256, 4096]⟩ : Shape).Idx → EReal) (i1 : IVec ⟨2, ![2, 500000]⟩ 32)
    (v1 : (⟨1, ![500000]⟩ : Shape).Idx → EReal) (i3 : IVec ⟨2, ![2, 100000]⟩ 32)
    (v3 : (⟨1, ![100000]⟩ : Shape).Idx → EReal) (b : (⟨1, ![4096]⟩ : Shape).Idx → EReal)
    (h : Spmm.Good x i1 v1 i3 v3 b) : Spmm.K x i1 v1 i3 v3 b = Spmm.G x i1 v1 i3 v3 b := by
  funext j
  show (∑ k : Fin 4096, x (ix2 (j 0) k) * dense i1 v1 i3 v3 (j 1) k) + b (ix1 (j 1))
    = (part x i1 v1 (j 0) (j 1) + part x i3 v3 (j 0) (j 1)) + b (ix1 (j 1))
  rw [contract_eq h (j 0) (j 1), edge_sum_split (j 0) (j 1)]

end Spmm

end
-- ==== Proof.LibScatter2.lean ====
/-
  Two host indexing operations read at an index, for any extents: the accumulating float scatter of the E
  entries of a vector into the entries of an [N × M] matrix that the rows of an [E × 2] array of
  (row, column) pairs name (jnp's A.at[r, c].add(u)), at the exact-arithmetic instance where the
  accumulation is a plain sum; and the gather of the entries of an [N] vector named by an [E × 1] column of
  positions (jnp's v[idx]).
-/
import Idealize.ShloMosaic.PureOps.Ideal
import Idealize.ShloMosaic.PureOps.Contract
import Idealize.ShloMosaic.Lib.ValueIdx

noncomputable section

namespace Idealize.ShloMosaic.PairOps

open Idealize.ShloMosaic Idealize.ShloMosaic.ValueIdx

/-- A sum over a rank-1 index set is the sum over its one coordinate. -/
theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update lands: update e lands on entry (i, j) exactly when the pair in row e of the index array, each
    component read signed, is (i, j). Both axes of the matrix are inserted (no window coordinate), so the landing
    coordinates are the two components themselves, not clamped: a negative component, or one past the matrix on its
    axis, lands nowhere. -/
theorem resultIdx_pair_iff {N M E w : Nat} (d : ScatterDims ⟨2, ![N, M]⟩ ⟨2, ![E, 2]⟩ ⟨1, ![E]⟩)
    (hiw : d.insertedWindowDims = [0, 1]) (hsd : d.scatterDimsToOperandDims = [0, 1])
    (hivd : d.indexVectorDim = 1) (idx : IVec ⟨2, ![E, 2]⟩ w) (e : Fin E) (i : Fin N) (j : Fin M) :
    d.resultIdx? (ix1 e) idx = some (ix2 i j) ↔
      (idx (ix2 e (0 : Fin 2))).toInt = (i.val : Int) ∧ (idx (ix2 e (1 : Fin 2))).toInt = (j.val : Int) := by
  -- the matrix has no window axis
  have hsk : d.sKept = [] := by
    show (⟨2, ![N, M]⟩ : Shape).kept d.insertedWindowDims = []
    rw [hiw]; rfl
  have coord0 : ∀ X : Fin 1, ((ix1 e) X).val = e.val := fun X => by
    obtain rfl : X = 0 := Subsingleton.elim _ _
    rfl
  -- on operand axis a the start is component a of row e of the index array
  have hst : ∀ a : Fin 2, d.start (ix1 e) idx a = (idx (ix2 e a)).toInt := by
    intro a
    have ha : a ∈ d.scatterDimsToOperandDims := by
      rw [hsd]; match a with
      | ⟨0, _⟩ => exact List.mem_cons_self
      | ⟨1, _⟩ => exact List.mem_cons_of_mem _ List.mem_cons_self
    unfold ScatterDims.start
    rw [dif_pos ha]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf a d.scatterDimsToOperandDims = a.val
      rw [hsd]
      match a with
      | ⟨0, _⟩ => rfl
      | ⟨1, _⟩ => rfl
  have hw : ∀ a : Fin 2, d.window (ix1 e) a = 0 := fun a => by
    unfold ScatterDims.window; rw [dif_neg (by rw [hsk]; simp)]
  unfold ScatterDims.resultIdx?
  split
  · -- the landing index is inside the matrix: compare it with (i, j) coordinate by coordinate
    rename_i h
    rw [Option.some.injEq]
    constructor
    · intro hf
      have h0 : (d.start (ix1 e) idx 0 + d.window (ix1 e) 0).toNat = i.val := congrArg (fun f => (f 0).val) hf
      have h1 : (d.start (ix1 e) idx 1 + d.window (ix1 e) 1).toNat = j.val := congrArg (fun f => (f 1).val) hf
      have hh0 := (h 0).1
      have hh1 := (h 1).1
      rw [hst, hw] at h0 hh0 h1 hh1
      exact ⟨by omega, by omega⟩
    · rintro ⟨hi, hj⟩
      funext a
      match a with
      | ⟨0, _⟩ =>
        apply Fin.ext
        show (d.start (ix1 e) idx 0 + d.window (ix1 e) 0).toNat = i.val
        rw [hst, hw, hi]; omega
      | ⟨1, _⟩ =>
        apply Fin.ext
        show (d.start (ix1 e) idx 1 + d.window (ix1 e) 1).toNat = j.val
        rw [hst, hw, hj]; omega
  · -- the landing index leaves the matrix: then the pair names no entry, (i, j) least of all
    rename_i h
    constructor
    · intro hf; exact absurd hf (by simp)
    · rintro ⟨hi, hj⟩
      exfalso; apply h
      intro a
      match a with
      | ⟨0, _⟩ =>
        show 0 ≤ d.start (ix1 e) idx 0 + d.window (ix1 e) 0 ∧ d.start (ix1 e) idx 0 + d.window (ix1 e) 0 < (N : Int)
        rw [hst, hw, hi]; have := i.isLt; omega
      | ⟨1, _⟩ =>
        show 0 ≤ d.start (ix1 e) idx 1 + d.window (ix1 e) 1 ∧ d.start (ix1 e) idx 1 + d.window (ix1 e) 1 < (M : Int)
        rw [hst, hw, hj]; have := j.isLt; omega

/-- Entry (i, j) after the scatter: what was there plus the updates over the e whose pair is (i, j). -/
theorem scatterAdd_pair_apply {N M E w : Nat} (d : ScatterDims ⟨2, ![N, M]⟩ ⟨2, ![E, 2]⟩ ⟨1, ![E]⟩)
    (hiw : d.insertedWindowDims = [0, 1]) (hsd : d.scatterDimsToOperandDims = [0, 1])
    (hivd : d.indexVectorDim = 1)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd d x idx upd (ix2 i j)
      = x (ix2 i j) + ∑ e : Fin E,
          if (idx (ix2 e (0 : Fin 2))).toInt = (i.val : Int) ∧ (idx (ix2 e (1 : Fin 2))).toInt = (j.val : Int)
          then upd (ix1 e) else 0 := by
  unfold Ideal.hostScatterAdd
  congr 1
  rw [Finset.sum_filter, sum_idx1]
  refine Finset.sum_congr rfl fun e _ => ?_
  by_cases he : (idx (ix2 e (0 : Fin 2))).toInt = (i.val : Int) ∧ (idx (ix2 e (1 : Fin 2))).toInt = (j.val : Int)
  · rw [if_pos he, if_pos ((resultIdx_pair_iff d hiw hsd hivd idx e i j).2 he)]
  · rw [if_neg he, if_neg fun h => he ((resultIdx_pair_iff d hiw hsd hivd idx e i j).1 h)]

/-- Entry e of the gathered vector is the operand's entry at e's position, read signed and clamped into the operand. -/
theorem gather_vec_apply {α : Type} {N E w : Nat} (d : GatherDims ⟨1, ![N]⟩ ⟨2, ![E, 1]⟩ ⟨1, ![E]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 (⟨min (idx (ix2 e (0 : Fin 1))).toInt.toNat (N - 1), by omega⟩ : Fin N)) := by
  unfold Host.gather
  congr 1
  funext a
  obtain rfl : a = 0 := Subsingleton.elim _ _
  have coord0 : ∀ X : Fin 1, ((ix1 e) X).val = e.val := fun X => by
    obtain rfl : X = 0 := Subsingleton.elim _ _
    rfl
  apply Fin.ext
  have hk : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  show d.start (ix1 e) idx 0 + d.batchCoord (ix1 e) 0 + d.offCoord (ix1 e) 0 = min (idx (ix2 e 0)).toInt.toNat (N - 1)
  rw [GatherDims.batchCoord_eq_zero _ _ _ (by rw [hob]; exact List.not_mem_nil), GatherDims.offCoord_eq_zero _ _ _ hk]
  simp only [Nat.add_zero]
  unfold GatherDims.start
  rw [dif_pos hm]
  show min (idx _).toInt.toNat (N - d.sliceSizes 0) = _
  rw [hsl]
  congr 3
  congr 1
  -- the start index is read at (e, 0): e from the result's one coordinate, 0 the one component of the index vector
  funext b
  match b with
  | ⟨0, _⟩ =>
    unfold GatherDims.siIdx
    rw [dif_neg (by rw [hivd]; simp)]
    unfold GatherDims.siCoord
    apply Fin.ext
    simp only [Fin.val_cast]
    exact coord0 _
  | ⟨1, _⟩ =>
    unfold GatherDims.siIdx
    rw [dif_pos (by rw [hivd])]
    apply Fin.ext
    show List.idxOf (0 : Fin 1) d.startIndexMap = 0
    rw [hsim]; simp

end Idealize.ShloMosaic.PairOps

end
-- ==== Proof.KernelHost.lean ====
/-
  What the matrix-product stage of the dense layer finds in its three operand arrays, index by index on the
  extended reals: the activations as given (a change of float format is the identity there), the bias as one row,
  and the dense 4096 × 4096 matrix that the 600000 nonzeros of the two sparse matrices, laid end to end, are
  scattered into — entry (o, k) the sum of the values whose normalised row and column words read (o, k).
-/
import proofs.«409742_j12378095747072_2_alg».proof.Proof.Gen.KernelIdeal.Frame
import proofs.«409742_j12378095747072_2_alg».proof.Proof.LibScatter2
import proofs.«409742_j12378095747072_2_alg».proof.Proof.SpmmSpec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo

/-! ## The index words and the values of the nonzeros, as the program lays them out -/

section Words

variable (i1 : IVec S2x500000 32) (i3 : IVec S2x100000 32)

/-- The two index arrays laid end to end along the nonzero axis. -/
def catI : IVec S2x600000 32 :=
  concatenate S2x600000 1 [⟨S2x500000, i1⟩, ⟨S2x100000, i3⟩] concatenates_S2x500000_S2x100000_S2x600000_d1

/-- Component r of nonzero e of the joined array: from the first array below 500000, from the second above. -/
theorem catI_apply (r : Fin 2) (e : Fin 600000) : catI i1 i3 (ix2 r e) = Spmm.catIdx i1 i3 r e := by
  unfold catI Spmm.catIdx
  by_cases h : e.val < 500000
  · rw [dif_pos h]
    exact concatenate_pair_apply_left (1 : Fin 2) i1 i3 concatenates_S2x500000_S2x100000_S2x600000_d1 (ix2 r e) rfl
      (ix2 r ⟨e.val, h⟩) (fun b => match b with | ⟨0, _⟩ => rfl | ⟨1, _⟩ => rfl)
  · rw [dif_neg h]
    exact concatenate_pair_apply_right (1 : Fin 2) i1 i3 concatenates_S2x500000_S2x100000_S2x600000_d1 (ix2 r e) rfl rfl
      (ix2 r ⟨e.val - 500000, by have := e.isLt; omega⟩)
      (fun b hb => match b, hb with | ⟨0, _⟩, _ => rfl | ⟨1, _⟩, hb => absurd rfl hb)
      (by show e.val - 500000 + 500000 = e.val; omega)

/-- The row words of the 600000 nonzeros: row 0 of the joined array, as a vector. -/
def rowW : IVec S600000 32 :=
  shapeCast _ (extractStridedSlice S1x600000 ![0, 0] (catI i1 i3) slices_S2x600000_S1x600000_0_0) shapeCasts_S1x600000_S600000

/-- The column words: row 1 of the joined array. -/
def colW : IVec S600000 32 :=
  shapeCast _ (extractStridedSlice S1x600000 ![1, 0] (catI i1 i3) slices_S2x600000_S1x600000_1_0) shapeCasts_S1x600000_S600000

theorem rowW_apply (e : Fin 600000) : rowW i1 i3 (ix1 e) = Spmm.catIdx i1 i3 0 e := by
  unfold rowW
  refine (shapeCast_apply _ shapeCasts_S1x600000_S600000 (ix1 e) (ix2 (0 : Fin 1) e)
    (by rewrite [Shape.rowMajor_val_two, Shape.rowMajor_val_one]; show 0 * 600000 + e.val = e.val; omega)).trans ?_
  refine (extractStridedSlice_apply ![0, 0] _ slices_S2x600000_S1x600000_0_0 (ix2 (0 : Fin 1) e) (ix2 (0 : Fin 2) e)
    (fun a => match a with
      | ⟨0, _⟩ => by show (0 : ℕ) = 0 + 0; rfl
      | ⟨1, _⟩ => by show e.val = 0 + e.val; omega)).trans ?_
  exact catI_apply i1 i3 0 e

theorem colW_apply (e : Fin 600000) : colW i1 i3 (ix1 e) = Spmm.catIdx i1 i3 1 e := by
  unfold colW
  refine (shapeCast_apply _ shapeCasts_S1x600000_S600000 (ix1 e) (ix2 (0 : Fin 1) e)
    (by rewrite [Shape.rowMajor_val_two, Shape.rowMajor_val_one]; show 0 * 600000 + e.val = e.val; omega)).trans ?_
  refine (extractStridedSlice_apply ![1, 0] _ slices_S2x600000_S1x600000_1_0 (ix2 (0 : Fin 1) e) (ix2 (1 : Fin 2) e)
    (fun a => match a with
      | ⟨0, _⟩ => by show (1 : ℕ) = 1 + 0; rfl
      | ⟨1, _⟩ => by show e.val = 0 + e.val; omega)).trans ?_
  exact catI_apply i1 i3 1 e

/-- jnp's normalisation of a vector of index words against an axis of 4096: where a word is negative, 4096 is added. -/
def nrmV (w : IVec S600000 32) : IVec S600000 32 :=
  select (cmpi .slt w (broadcastInDim S600000 ![] bcast_S_S600000 (constantI S_ 32 0#32)))
    (addi w (broadcastInDim S600000 ![] bcast_S_S600000 (constantI S_ 32 4096#32))) w

theorem nrmV_apply (w : IVec S600000 32) (j : S600000.Idx) : nrmV w j = Spmm.nrm (w j) := rfl

/-- The normalised row words as a column. -/
def rowCol : IVec S600000x1 32 := broadcastInDim S600000x1 ![0] bcast_S600000_S600000x1_0 (nrmV (rowW i1 i3))

/-- The normalised column words as a column. -/
def colCol : IVec S600000x1 32 := broadcastInDim S600000x1 ![0] bcast_S600000_S600000x1_0 (nrmV (colW i1 i3))

theorem rowCol_apply (e : Fin 600000) : rowCol i1 i3 (ix2 e (0 : Fin 1)) = Spmm.nrm (Spmm.catIdx i1 i3 0 e) := by
  unfold rowCol
  refine (broadcastInDim_apply _ bcast_S600000_S600000x1_0 (nrmV (rowW i1 i3)) (ix2 e (0 : Fin 1)) (ix1 e)
    (fun a => match a with
      | ⟨0, _⟩ => by show e.val = if (600000 : ℕ) = 1 then 0 else e.val; rw [if_neg (by decide)])).trans ?_
  rw [nrmV_apply, rowW_apply]

theorem colCol_apply (e : Fin 600000) : colCol i1 i3 (ix2 e (0 : Fin 1)) = Spmm.nrm (Spmm.catIdx i1 i3 1 e) := by
  unfold colCol
  refine (broadcastInDim_apply _ bcast_S600000_S600000x1_0 (nrmV (colW i1 i3)) (ix2 e (0 : Fin 1)) (ix1 e)
    (fun a => match a with
      | ⟨0, _⟩ => by show e.val = if (600000 : ℕ) = 1 then 0 else e.val; rw [if_neg (by decide)])).trans ?_
  rw [nrmV_apply, colW_apply]

/-- The scatter's index array: the normalised row and column words side by side, one pair per nonzero. -/
def idxAll : IVec S600000x2 32 :=
  concatenate S600000x2 1 [⟨S600000x1, rowCol i1 i3⟩, ⟨S600000x1, colCol i1 i3⟩]
    concatenates_S600000x1_S600000x1_S600000x2_d1

theorem idxAll_row (e : Fin 600000) : idxAll i1 i3 (ix2 e (0 : Fin 2)) = Spmm.nrm (Spmm.catIdx i1 i3 0 e) := by
  unfold idxAll
  exact (concatenate_pair_apply_left (1 : Fin 2) (rowCol i1 i3) (colCol i1 i3)
    concatenates_S600000x1_S600000x1_S600000x2_d1 (ix2 e (0 : Fin 2)) rfl
    (ix2 e (0 : Fin 1)) (fun b => match b with | ⟨0, _⟩ => rfl | ⟨1, _⟩ => rfl)).trans (rowCol_apply i1 i3 e)

theorem idxAll_col (e : Fin 600000) : idxAll i1 i3 (ix2 e (1 : Fin 2)) = Spmm.nrm (Spmm.catIdx i1 i3 1 e) := by
  unfold idxAll
  exact (concatenate_pair_apply_right (1 : Fin 2) (rowCol i1 i3) (colCol i1 i3)
    concatenates_S600000x1_S600000x1_S600000x2_d1 (ix2 e (1 : Fin 2)) rfl rfl
    (ix2 e (0 : Fin 1)) (fun b hb => match b, hb with | ⟨0, _⟩, _ => rfl | ⟨1, _⟩, hb => absurd rfl hb)
    (by show 0 + 1 = 1; rfl)).trans (colCol_apply i1 i3 e)

end Words

section Values

variable (v1 : FVec Ideal S500000 .f32) (v3 : FVec Ideal S100000 .f32)

/-- The two value vectors laid end to end. -/
def catV : FVec Ideal S600000 .f32 :=
  concatenate S600000 0 [⟨S500000, v1⟩, ⟨S100000, v3⟩] concatenates_S500000_S100000_S600000_d0

theorem catV_apply (e : Fin 600000) : catV v1 v3 (ix1 e) = Spmm.catVal v1 v3 e := by
  unfold catV Spmm.catVal
  by_cases h : e.val < 500000
  · rw [dif_pos h]
    exact concatenate_pair_apply_left (0 : Fin 1) v1 v3 concatenates_S500000_S100000_S600000_d0 (ix1 e) rfl
      (ix1 ⟨e.val, h⟩) (fun b => match b with | ⟨0, _⟩ => rfl)
  · rw [dif_neg h]
    exact concatenate_pair_apply_right (0 : Fin 1) v1 v3 concatenates_S500000_S100000_S600000_d0 (ix1 e) rfl rfl
      (ix1 ⟨e.val - 500000, by have := e.isLt; omega⟩)
      (fun b hb => match b, hb with | ⟨0, _⟩, hb => absurd rfl hb)
      (by show e.val - 500000 + 500000 = e.val; omega)

end Values

/-- The scatter of the 600000 values into a 4096 × 4096 array of zeros, read at (o, k): nothing was there, and the
    values that land are those whose normalised (row, column) words read (o, k) — the dense matrix's entry. -/
theorem scatter_apply (i1 : IVec S2x500000 32) (v1 : FVec Ideal S500000 .f32) (i3 : IVec S2x100000 32)
    (v3 : FVec Ideal S100000 .f32) (o k : Fin 4096) :
    Host.scatterAdd (F := Ideal) scatter_S4096x4096_S600000x2_S600000_n_01_01_1
        (broadcastInDim S4096x4096 ![] bcast_S_S4096x4096 (constant (F := Ideal) S_ .f32 0x00000000#32))
        (idxAll i1 i3) (catV v1 v3) (ix2 o k)
      = Spmm.dense i1 v1 i3 v3 o k := by
  show Ideal.hostScatterAdd scatter_S4096x4096_S600000x2_S600000_n_01_01_1 _ (idxAll i1 i3) (catV v1 v3) (ix2 o k) = _
  rw [PairOps.scatterAdd_pair_apply scatter_S4096x4096_S600000x2_S600000_n_01_01_1 rfl rfl rfl]
  have hz : broadcastInDim S4096x4096 ![] bcast_S_S4096x4096 (constant (F := Ideal) S_ .f32 0x00000000#32) (ix2 o k)
      = (0 : EReal) := by
    show Ideal.ofBits .f32 0x00000000#32 = 0
    exact Ideal.ofBits_zero_f32
  rw [hz, zero_add]
  unfold Spmm.dense
  refine Finset.sum_congr rfl fun e _ => ?_
  rw [idxAll_row, idxAll_col, catV_apply]

/-! ## The three arrays the matrix-product stage reads, as it finds them -/

variable (m : (ℓ : Loc nD τ sig) → Buf (Elt Ideal) ℓ)

/-- The activations as staged. -/
abbrev xarr (c : Dev nD) : S256x4096.Idx → EReal := V m c main_v21
/-- The dense matrix as staged. -/
abbrev aarr (c : Dev nD) : S4096x4096.Idx → EReal := V m c main_v20
/-- The bias row as staged. -/
abbrev barr (c : Dev nD) : S1x4096.Idx → EReal := V m c main_v22

/-- The staged activations are the given ones: narrowing the float format changes no extended real. -/
theorem xarr_apply (c : Dev nD) (i : S256x4096.Idx) :
    xarr m c i = (m ((c : Thread nD τ).loc main_arg0) : S256x4096.Idx → EReal) i := by
  have e : (V m c main_v21 : S256x4096.Idx → EReal)
      = truncf (F := Ideal) .bf16 (m ((c : Thread nD τ).loc main_arg0)) bitsLt_bf16_f32 := by
    dsimp only [V, hostOps0]; after_results_simp <;> rfl
  show (V m c main_v21 : S256x4096.Idx → EReal) i = _
  rw [e]
  rfl

/-- The staged bias row holds the bias vector. -/
theorem barr_apply (c : Dev nD) (q : Fin 4096) :
    barr m c (ix2 (0 : Fin 1) q) = (m ((c : Thread nD τ).loc main_arg5) : S4096.Idx → EReal) (ix1 q) := by
  have e : (V m c main_v22 : S1x4096.Idx → EReal)
      = shapeCast _ (m ((c : Thread nD τ).loc main_arg5) : S4096.Idx → EReal) shapeCasts_S4096_S1x4096 := by
    dsimp only [V, hostOps0]; after_results_simp <;> rfl
  show (V m c main_v22 : S1x4096.Idx → EReal) (ix2 (0 : Fin 1) q) = _
  rw [e]
  exact shapeCast_apply _ shapeCasts_S4096_S1x4096 (ix2 (0 : Fin 1) q) (ix1 q)
    (by rewrite [Shape.rowMajor_val_two, Shape.rowMajor_val_one]; show q.val = 0 * 4096 + q.val; omega)

set_option maxHeartbeats 4000000 in
/-- The staged matrix is the dense matrix of the two sparse matrices' nonzeros. -/
theorem aarr_apply (c : Dev nD) (o k : Fin 4096) :
    aarr m c (ix2 o k)
      = Spmm.dense (m ((c : Thread nD τ).loc main_arg1)) (m ((c : Thread nD τ).loc main_arg2))
          (m ((c : Thread nD τ).loc main_arg3)) (m ((c : Thread nD τ).loc main_arg4)) o k := by
  have e : (V m c main_v20 : S4096x4096.Idx → EReal)
      = Host.scatterAdd (F := Ideal) scatter_S4096x4096_S600000x2_S600000_n_01_01_1
          (broadcastInDim S4096x4096 ![] bcast_S_S4096x4096 (constant (F := Ideal) S_ .f32 0x00000000#32))
          (idxAll (m ((c : Thread nD τ).loc main_arg1)) (m ((c : Thread nD τ).loc main_arg3)))
          (catV (m ((c : Thread nD τ).loc main_arg2)) (m ((c : Thread nD τ).loc main_arg4))) := by
    dsimp only [V, hostOps0]; after_results_simp <;> rfl
  show (V m c main_v20 : S4096x4096.Idx → EReal) (ix2 o k) = _
  rw [e]
  exact scatter_apply _ _ _ _ o k

end Cert.KernelIdeal.Staged

end
-- ==== Proof.KernelValue.lean ====
/-
  The dense layer's matrix-product stage, read as one function of the arrays it finds. At each of its 8 grid points
  the stage multiplies the whole 256 × 4096 activation block into the transpose of a 512-row tile of the dense
  matrix and adds the matching 512 entries of the bias row, and writes the 256 × 512 result tile back; the tiles
  fill the 256 × 4096 result, so entry (p, o) of it is the contraction of activation row p with dense-matrix row o
  plus bias entry o — the layer read as a contraction with the dense matrix.
-/
import proofs.«409742_j12378095747072_2_alg».proof.Proof.Gen.KernelIdeal.Value
import proofs.«409742_j12378095747072_2_alg».proof.Proof.KernelHost
import proofs.«409742_j12378095747072_2_alg».proof.Proof.SpmmSpec
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.Staged Idealize.ShloMosaic Idealize.ShloMosaic.TcCoe Idealize.SL.Sem
open Idealize.ShloMosaic.ValueIdx
open Idealize.ShloMosaic.Pipeline (Dat)

/-! ## The block product at an output index -/

/-- The left operand's row is the output's row. -/
theorem lhs_mm_0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide),
    dif_pos (show (0 : Fin S256x4096.rank) ∈ dot_S256x4096_S512x4096_S256x512_1_1_0_0_n_n.lhsNonContracting by decide)]
  rfl

/-- The left operand's column is the contraction position. -/
theorem lhs_mm_1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q

/-- The right operand's row is the output's column. -/
theorem rhs_mm_0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide),
    dif_pos (show (0 : Fin S512x4096.rank) ∈ dot_S256x4096_S512x4096_S256x512_1_1_0_0_n_n.rhsNonContracting by decide)]
  rfl

/-- The right operand's column is the contraction position. -/
theorem rhs_mm_1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

/-- A 256 × 4096 block times the transpose of a 512 × 4096 block, into a zero accumulator, at (p, q): the sum over
    the 4096 columns of the products of row p of the first with row q of the second. -/
theorem mm_apply (a : FVec Ideal S256x4096 .bf16) (b : FVec Ideal S512x4096 .bf16) (i : S256x512.Idx) :
    matmul dot_S256x4096_S512x4096_S256x512_1_1_0_0_n_n none a b (constant (F := Ideal) S256x512 .f32 0x00000000#32) i
      = ∑ k : Fin 4096, a (ix2 (i 0) k) * b (ix2 (i 1) k) := by
  simp only [matmul]
  rw [Ideal.matmul_constant_zero_apply, ← Equiv.sum_comp (ValueIdx.contrEquiv1 dot_S256x4096_S512x4096_S256x512_1_1_0_0_n_n 4096 rfl rfl).symm]
  refine Finset.sum_congr rfl fun k _ => ?_
  have hk := ValueIdx.contrEquiv1_symm_val dot_S256x4096_S512x4096_S256x512_1_1_0_0_n_n 4096 rfl rfl k
  have el : dot_S256x4096_S512x4096_S256x512_1_1_0_0_n_n.lhsIdx i ((ValueIdx.contrEquiv1 dot_S256x4096_S512x4096_S256x512_1_1_0_0_n_n 4096 rfl rfl).symm k) = ix2 (i 0) k :=
    funext fun a => Fin.ext (by
      match a with
      | ⟨0, _⟩ => exact lhs_mm_0 _ _
      | ⟨1, _⟩ => exact (lhs_mm_1 _ _).trans hk)
  have er : dot_S256x4096_S512x4096_S256x512_1_1_0_0_n_n.rhsIdx i ((ValueIdx.contrEquiv1 dot_S256x4096_S512x4096_S256x512_1_1_0_0_n_n 4096 rfl rfl).symm k) = ix2 (i 1) k :=
    funext fun a => Fin.ext (by
      match a with
      | ⟨0, _⟩ => exact rhs_mm_0 _ _
      | ⟨1, _⟩ => exact (rhs_mm_1 _ _).trans hk)
  rw [el, er]
  rfl

/-- The body's one stored value as the operations it is made of. -/
theorem pay_eq (x0 : Vec Ideal S256x4096 .bf16) (x1 : Vec Ideal S512x4096 .f32) (x2 : Vec Ideal S1x512 .f32) :
    k0_pay1 (F := Ideal) x0 x1 x2
      = addf (matmul dot_S256x4096_S512x4096_S256x512_1_1_0_0_n_n none
            (shapeCast S256x4096 x0 shapeCasts_S256x4096_S256x4096 : FVec Ideal S256x4096 .bf16)
            (truncf .bf16 (shapeCast S512x4096 x1 shapeCasts_S512x4096_S512x4096 : FVec Ideal S512x4096 .f32) bitsLt_bf16_f32)
            (constant S256x512 .f32 0x00000000#32))
          (broadcastTo S256x512 (shapeCast S1x512 x2 shapeCasts_S1x512_S1x512 : FVec Ideal S1x512 .f32)
            broadcasts_S1x512_S256x512) := rfl

/-- The stored tile at (p, q): the contraction of row p of the activation block with row q of the matrix tile,
    plus entry q of the bias tile. -/
theorem pay_apply (x0 : Vec Ideal S256x4096 .bf16) (x1 : Vec Ideal S512x4096 .f32) (x2 : Vec Ideal S1x512 .f32)
    (j : S256x512.Idx) :
    k0_pay1 (F := Ideal) x0 x1 x2 j
      = (∑ k : Fin 4096, x0 (ix2 (j 0) k) * x1 (ix2 (j 1) k)) + x2 (ix2 (0 : Fin 1) (j 1)) := by
  rw [pay_eq, shapeCast_self, shapeCast_self, shapeCast_self]
  show (matmul dot_S256x4096_S512x4096_S256x512_1_1_0_0_n_n none x0 (truncf .bf16 x1 bitsLt_bf16_f32) (constant (F := Ideal) S256x512 .f32 0x00000000#32) j)
      + (broadcastTo S256x512 x2 broadcasts_S1x512_S256x512 j) = _
  rw [mm_apply, broadcastTo_apply x2 broadcasts_S1x512_S256x512 j (ix2 (0 : Fin 1) (j 1))
    (fun a => match a with
      | ⟨0, _⟩ => by show (0 : ℕ) = if (1 : ℕ) = 1 then 0 else (j 0).val; rw [if_pos rfl]
      | ⟨1, _⟩ => by show (j 1).val = if (512 : ℕ) = 1 then 0 else (j 1).val; rw [if_neg (by decide)])]
  rfl

/-! ## From the tiles to the array -/

variable (m : (ℓ : Loc nD τ sig) → Buf (Elt Ideal) ℓ) (ρ : Dev nD → PrngReg)

theorem hz : (![0, 0] : Fin 2 → Nat) = fun _ => 0 := funext fun a => by fin_cases a <;> rfl

/-- The activations, the dense matrix and the bias row as the stage finds them. -/
def X (c : Dev nD) : S256x4096.Idx → EReal := xarr m c
def A (c : Dev nD) : S4096x4096.Idx → EReal := aarr m c
def Bv (c : Dev nD) : S1x4096.Idx → EReal := barr m c

theorem X_apply (c : Dev nD) (i : S256x4096.Idx) :
    X m c i = (m ((c : Thread nD τ).loc main_arg0) : S256x4096.Idx → EReal) i := xarr_apply m c i

theorem A_apply (c : Dev nD) (o k : Fin 4096) :
    A m c (ix2 o k)
      = Spmm.dense (m ((c : Thread nD τ).loc main_arg1)) (m ((c : Thread nD τ).loc main_arg2))
          (m ((c : Thread nD τ).loc main_arg3)) (m ((c : Thread nD τ).loc main_arg4)) o k := aarr_apply m c o k

theorem Bv_apply (c : Dev nD) (q : Fin 4096) :
    Bv m c (ix2 (0 : Fin 1) q) = (m ((c : Thread nD τ).loc main_arg5) : S4096.Idx → EReal) (ix1 q) := barr_apply m c q

/-- The result array as one function of the three arrays the stage finds. -/
def Gk (c : Dev nD) : S256x4096.Idx → EReal := fun i =>
  (∑ k : Fin 4096, X m c (ix2 (i 0) k) * A m c (ix2 (i 1) k)) + Bv m c (ix2 (0 : Fin 1) (i 1))

/-- Where each window's block sits at grid point t: the activations whole, tile t of the matrix rows, tile t of
    the bias and of the result columns. -/
theorem idx_facts : ∀ t : Fin cfg0.N, win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) = 0 ∧ win0_3.index t (1 : Fin 2) ≤ 7 :=
  (by decide +kernel : ∀ t : Fin grid0.N, _)

/-- Every column tile of the result is some grid point's. -/
theorem idx_onto : ∀ q1 : Fin 8, ∃ t : Fin cfg0.N, win0_3.index t = ![0, q1.val] :=
  (by decide +kernel : ∀ q1 : Fin 8, ∃ t : Fin grid0.N, win0_3.index t = ![0, q1.val])

/-- The array column (and dense-matrix row) that position q of grid point t's tile stands for. -/
def col (t : Fin cfg0.N) (q : Fin 512) : Fin 4096 :=
  ⟨win0_3.index t (1 : Fin 2) * 512 + q.val, by
    have h := (idx_facts t).2.2.2.2.2.2.2
    have hq := q.isLt
    omega⟩

/-- The three input blocks at grid point t. -/
def xblk (c : Dev nD) (t : Fin cfg0.N) : S256x4096.Idx → EReal := iblk m c 0 t
def ablk (c : Dev nD) (t : Fin cfg0.N) : S512x4096.Idx → EReal := iblk m c 1 t
def bblk (c : Dev nD) (t : Fin cfg0.N) : S1x512.Idx → EReal := iblk m c 2 t

set_option maxHeartbeats 1000000 in
/-- The activation block is the whole activation array at every grid point. -/
theorem xblk_apply (c : Dev nD) (t : Fin cfg0.N) (p : Fin 256) (k : Fin 4096) :
    xblk m c t (ix2 p k) = X m c (ix2 p k) := by
  obtain ⟨e00, e01, -⟩ := idx_facts t
  show xarr m c (((cfg0.win 0).blk t).view.emb (ix2 p k)) = xarr m c (ix2 p k)
  refine congrArg (xarr m c) (funext fun a => Fin.ext ?_)
  match a with
  | ⟨0, _⟩ =>
    show win0_0.index t (0 : Fin 2) * 256 + 1 * p.val = p.val
    omega
  | ⟨1, _⟩ =>
    show win0_0.index t (1 : Fin 2) * 4096 + 1 * k.val = k.val
    omega

set_option maxHeartbeats 1000000 in
/-- Row q of the matrix block at grid point t is row (tile t, q) of the dense matrix. -/
theorem ablk_apply (c : Dev nD) (t : Fin cfg0.N) (q : Fin 512) (k : Fin 4096) :
    ablk m c t (ix2 q k) = A m c (ix2 (col t q) k) := by
  obtain ⟨-, -, e10, e11, -⟩ := idx_facts t
  show aarr m c (((cfg0.win 1).blk t).view.emb (ix2 q k)) = aarr m c (ix2 (col t q) k)
  refine congrArg (aarr m c) (funext fun a => Fin.ext ?_)
  match a with
  | ⟨0, _⟩ =>
    show win0_1.index t (0 : Fin 2) * 512 + 1 * q.val = win0_3.index t (1 : Fin 2) * 512 + q.val
    omega
  | ⟨1, _⟩ =>
    show win0_1.index t (1 : Fin 2) * 4096 + 1 * k.val = k.val
    omega

set_option maxHeartbeats 1000000 in
/-- Entry q of the bias block at grid point t is entry (tile t, q) of the bias row. -/
theorem bblk_apply (c : Dev nD) (t : Fin cfg0.N) (q : Fin 512) :
    bblk m c t (ix2 (0 : Fin 1) q) = Bv m c (ix2 (0 : Fin 1) (col t q)) := by
  obtain ⟨-, -, -, -, e20, e21, -⟩ := idx_facts t
  show barr m c (((cfg0.win 2).blk t).view.emb (ix2 (0 : Fin 1) q)) = barr m c (ix2 (0 : Fin 1) (col t q))
  refine congrArg (barr m c) (funext fun a => Fin.ext ?_)
  match a with
  | ⟨0, _⟩ =>
    show win0_2.index t (0 : Fin 2) * 1 + 1 * 0 = 0
    omega
  | ⟨1, _⟩ =>
    show win0_2.index t (1 : Fin 2) * 512 + 1 * q.val = win0_3.index t (1 : Fin 2) * 512 + q.val
    omega

set_option maxHeartbeats 1000000 in
/-- Position j of grid point t's result tile sits at row j₀, column (tile t, j₁) of the result. -/
theorem emb3 (t : Fin cfg0.N) (j : S256x512.Idx) :
    (((cfg0.win 3).blk t).view.emb j : S256x4096.Idx) = ix2 (j 0) (col t (j 1)) := by
  obtain ⟨-, -, -, -, -, -, e30, -⟩ := idx_facts t
  funext a
  apply Fin.ext
  match a with
  | ⟨0, _⟩ =>
    show win0_3.index t (0 : Fin 2) * 256 + 1 * (j 0).val = (j 0).val
    omega
  | ⟨1, _⟩ =>
    show win0_3.index t (1 : Fin 2) * 512 + 1 * (j 1).val = win0_3.index t (1 : Fin 2) * 512 + (j 1).val
    omega

set_option maxHeartbeats 1000000 in
/-- What grid point t stores at tile position j is the result function at the array index tile t puts j at. -/
theorem point_eq (c : Dev nD) (t : Fin cfg0.N) (j : S256x512.Idx) :
    k0_pay1 (F := Ideal) (iblk m c 0 t) (iblk m c 1 t) (iblk m c 2 t) j
      = Gk m c (((cfg0.win 3).blk t).view.emb j) := by
  refine (pay_apply (xblk m c t) (ablk m c t) (bblk m c t) j).trans ?_
  rw [emb3 t j]
  show _ = (∑ k : Fin 4096, X m c (ix2 (j 0) k) * A m c (ix2 (col t (j 1)) k)) + Bv m c (ix2 (0 : Fin 1) (col t (j 1)))
  rw [bblk_apply m c t (j 1)]
  refine congrArg (· + Bv m c (ix2 (0 : Fin 1) (col t (j 1)))) ?_
  exact Finset.sum_congr rfl fun k _ => by rw [xblk_apply m c t (j 0) k, ablk_apply m c t (j 1) k]

/-- What grid point t writes back is tile t of the result function. -/
theorem flushed_eq (c : Dev nD) (t : Fin cfg0.N) :
    (dats m 0 c).flushed 3 t = ((cfg0.win 3).blk t).view.read (Elt Ideal) (Gk m c) := by
  rw [Cert.KernelIdeal.Value.flushed3]
  unfold out0_3
  rw [View.canon_unit_zero hz]
  simp only [View.ld_unit_zero (S := S256x4096) hz, View.ld_unit_zero (S := S512x4096) hz, View.ld_unit_zero (S := S1x512) hz]
  funext j
  exact point_eq m c t j

/-- An index of the result is in grid point t's tile iff each coordinate is in the tile's range. -/
theorem mem_blk (t : Fin cfg0.N) (i : S256x4096.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v23).slice (win0_3.rect t)).set ↔ _
  rw [View.set_slice_whole, Rect.mem_set_unit]
  exact Iff.rfl

/-- The 8 tiles fill the result: column c lies in tile c / 512. -/
theorem cover (i : S256x4096.Idx) :
    ∃ t : Fin cfg0.N, (cfg0.win 3).flush t = true ∧ i ∈ ((cfg0.win 3).blk t).view.set := by
  have hi0 : (i 0).val < 256 := (i 0).isLt
  have hi1 : (i 1).val < 4096 := (i 1).isLt
  obtain ⟨t, ht⟩ := idx_onto ⟨(i 1).val / 512, by omega⟩
  have q0 : win0_3.index t (0 : Fin 2) = 0 := congrFun ht 0
  have q1 : win0_3.index t (1 : Fin 2) = (i 1).val / 512 := congrFun ht 1
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 512 ≤ (i 1).val ∧ (i 1).val < win0_3.index t (1 : Fin 2) * 512 + 512
    omega

/-- The result array after the run is the result function of the arrays the stage found. -/
theorem final (c : Dev nD) : (dats m 0 c).arrAt 3 cfg0.N = Gk m c :=
  (dats m 0 c).arrAt_eq_of_cover 3 (Gk m c) (fun t _ => flushed_eq m c t) (cover)

/-- A contraction of arrays that agree, entry by entry, with the activations, the dense matrix of the nonzeros and
    the bias is the layer's contraction form. -/
theorem K_of (x : S256x4096.Idx → EReal) (a : S4096x4096.Idx → EReal) (bb : S1x4096.Idx → EReal)
    (x' : S256x4096.Idx → EReal) (i1 : IVec S2x500000 32) (v1 : S500000.Idx → EReal) (i3 : IVec S2x100000 32)
    (v3 : S100000.Idx → EReal) (b' : S4096.Idx → EReal)
    (hx : ∀ i, x i = x' i) (ha : ∀ o k, a (ix2 o k) = Spmm.dense i1 v1 i3 v3 o k)
    (hb : ∀ q, bb (ix2 (0 : Fin 1) q) = b' (ix1 q)) (i : S256x4096.Idx) :
    (∑ k : Fin 4096, x (ix2 (i 0) k) * a (ix2 (i 1) k)) + bb (ix2 (0 : Fin 1) (i 1))
      = Spmm.K x' i1 v1 i3 v3 b' i := by
  show _ = (∑ k : Fin 4096, x' (ix2 (i 0) k) * Spmm.dense i1 v1 i3 v3 (i 1) k) + b' (ix1 (i 1))
  rw [hb (i 1)]
  refine congrArg (· + b' (ix1 (i 1))) ?_
  exact Finset.sum_congr rfl fun k _ => by rw [hx (ix2 (i 0) k), ha (i 1) k]

/-- In the program's arguments: the layer read as a contraction with the dense matrix of the nonzeros. -/
theorem Gk_eq (c : Dev nD) :
    Gk m c = Spmm.K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  exact K_of (X m c) (A m c) (Bv m c) _ _ _ _ _ _ (X_apply m c) (A_apply m c) (Bv_apply m c) i

/-- The idealized kernel's run: it ends with the result at the layer's contraction form of the arguments, the
    arguments unchanged. -/
theorem run : θ_run defs (onTc (τ := τ) (main (F := Ideal))) ⟨m, fun _ => 0, ρ⟩ fun r => ∀ c : Dev nD,
      r.2.mem ((c : Thread nD τ).loc main_v23) = Spmm.K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (Gk_eq m c)), (h c).2⟩)
    (Cert.KernelIdeal.Value.run_blocks m ρ)

end Cert.KernelIdeal.KV

end
-- ==== Proof.lean ====
/-
  The certificate of a dense layer whose weight matrix is the sum of two sparse matrices given in coordinate form:
  out = x · (S₁ + S₂)ᵀ + b, x of 256 × 4096 entries, 500000 + 100000 nonzeros, duplicates adding up.

  The kernel scatters all 600000 nonzeros into one dense 4096 × 4096 matrix and contracts x with it, 512 output
  columns per grid point; the reference gathers, for each sparse matrix, the column of x each nonzero names,
  scales it by the nonzero's value and sums the results by row word, then adds the two shares. On the extended
  reals both are read index by index (Spmm.K and Spmm.G), and the two readings agree when every float input is a
  real number — x · (a + b) = x · a + x · b fails at the infinities — and every index word lies in [0, 4096):
  outside that range the two programs treat a word differently (a negative row word wraps round in the one and is
  dropped in the other; a column word past the axis is dropped in the one and clamped in the other). The
  precondition states exactly these two things, and Spmm.good_of_pre reads them off it.

  The three frames are the programs' runs with the results dropped; the idealization rewrote nothing, so there is
  nothing to preserve.
-/
import proofs.«409742_j12378095747072_2_alg».proof.Defs
import proofs.«409742_j12378095747072_2_alg».proof.Proof.Gen.Kernel
import proofs.«409742_j12378095747072_2_alg».proof.Proof.Gen.Kernel.Frame
import proofs.«409742_j12378095747072_2_alg».proof.Proof.Gen.KernelIdeal
import proofs.«409742_j12378095747072_2_alg».proof.Proof.Gen.KernelIdeal.Frame
import proofs.«409742_j12378095747072_2_alg».proof.Proof.Gen.KernelIdeal.Value
import proofs.«409742_j12378095747072_2_alg».proof.Proof.Gen.ReferenceIdeal
import proofs.«409742_j12378095747072_2_alg».proof.Proof.Gen.ReferenceIdeal.Run
import proofs.«409742_j12378095747072_2_alg».proof.Proof.Gen.ReferenceIdeal.Read
import proofs.«409742_j12378095747072_2_alg».proof.Proof.Gen.Pre_finite_inputs
import proofs.«409742_j12378095747072_2_alg».proof.Proof.SpmmSpec
import proofs.«409742_j12378095747072_2_alg».proof.Proof.PreDecode
import proofs.«409742_j12378095747072_2_alg».proof.Proof.RefSide
import proofs.«409742_j12378095747072_2_alg».proof.Proof.Bridge
import proofs.«409742_j12378095747072_2_alg».proof.Proof.KernelValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the layer's value: the kernel with its contraction form (the staged dense matrix
    contracted with x), the reference with its sum over the nonzeros; under the precondition the two forms are equal. -/
theorem algebraic : Cert.algebraic_KernelIdeal_ReferenceIdeal := by
  intro m ρ m' ρ' hpre hagree
  refine ⟨fun c => Spmm.K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Spmm.ref_eq_G, (hagree c).1, (hagree c).2.1, (hagree c).2.2.1,
    (hagree c).2.2.2.1, (hagree c).2.2.2.2.1, (hagree c).2.2.2.2.2]
  exact (Spmm.K_eq_G _ _ _ _ _ _ (Spmm.good_of_pre _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
